-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x512x128 : Shape := ⟨4, ![1, 256, 512, 128]⟩
abbrev S128 : Shape := ⟨1, ![128]⟩
abbrev S128x128 : Shape := ⟨2, ![128, 128]⟩
abbrev S_ : Shape := ⟨0, ![]⟩

class Facts : Prop where
  bcast_S_S1x256x512x128 : S_.BroadcastsInDim S1x256x512x128 (![] : Fin 0 → Fin S1x256x512x128.rank)
  reducesTo_S1x256x512x128_S_d0_1_2_3 : S1x256x512x128.ReducesTo [0, 1, 2, 3] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128x128 .f32) (main_arg8 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S1x256x512x128 .f32) (main_arg1 : FVec F S128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S1x256x512x128 .f32 := Host.absf main_arg0
  let main_cst : FVec F S_ .f32 := constant S_ .f32 0x7F800000#32
  let main_v1 : FVec F S1x256x512x128 .f32 := broadcastInDim S1x256x512x128 ![] bcast_S_S1x256x512x128 main_cst
  let main_v2 : IVec S1x256x512x128 1 := cmpf .olt main_v0 main_v1
  let main_c : IVec S_ 1 := constantI S_ 1 1#1
  let main_v3 : IVec S_ 1 := (fun x v => Host.reduce IntOp.andi x v reducesTo_S1x256x512x128_S_d0_1_2_3 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S1x256x512x128 : Shape := ⟨4, ![1, 256, 512, 128]⟩
abbrev S128 : Shape := ⟨1, ![128]⟩
abbrev S128x128 : Shape := ⟨2, ![128, 128]⟩
abbrev S512x128 : Shape := ⟨2, ![512, 128]⟩
abbrev S1x256x64x128 : Shape := ⟨4, ![1, 256, 64, 128]⟩
abbrev S64x128 : Shape := ⟨2, ![64, 128]⟩
abbrev S256x64x128 : Shape := ⟨3, ![256, 64, 128]⟩
abbrev S256x64 : Shape := ⟨2, ![256, 64]⟩
abbrev S256x64x1 : Shape := ⟨3, ![256, 64, 1]⟩
abbrev S1x1x128 : Shape := ⟨3, ![1, 1, 128]⟩
abbrev S1x128 : Shape := ⟨2, ![1, 128]⟩
abbrev S512x512x128 : Shape := ⟨3, ![512, 512, 128]⟩
abbrev S128x128x128 : Shape := ⟨3, ![128, 128, 128]⟩
abbrev S128x1x128 : Shape := ⟨3, ![128, 1, 128]⟩
abbrev S1x128x128 : Shape := ⟨3, ![1, 128, 128]⟩
abbrev S1x512x512x128 : Shape := ⟨4, ![1, 512, 512, 128]⟩

abbrev nBuf : Space → Nat
  | .hbm => 13
  | .vmem => 20
  | .smem => 0
  | _ => 0

abbrev bufTy : (tb : Table) → Fin (tcTables nBuf tb) → BufTy
  | .hbm, ⟨0, _⟩ => ⟨S1x256x512x128, .f32⟩
  | .hbm, ⟨1, _⟩ => ⟨S128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S512x128, .f32⟩
  | .hbm, ⟨10, _⟩ => ⟨S512x128, .f32⟩
  | .hbm, ⟨11, _⟩ => ⟨S512x512x128, .f32⟩
  | .hbm, ⟨12, _⟩ => ⟨S1x512x512x128, .f32⟩
  | .local _ .vmem, ⟨0, _⟩ => ⟨S1x256x64x128, .f32⟩
  | .local _ .vmem, ⟨1, _⟩ => ⟨S1x256x64x128, .f32⟩
  | .local _ .vmem, ⟨2, _⟩ => ⟨S128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128, .f32⟩
  | .local _ .vmem, ⟨18, _⟩ => ⟨S128x128x128, .f32⟩
  | .local _ .vmem, ⟨19, _⟩ => ⟨S128x128x128, .f32⟩
  | _, _ => ⟨S1x256x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S128x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x256x64x128_S1x256x64x128_0_0_0_0 : ∀ a, (![0, 0, 0, 0] : Fin 4 → Nat) a + S1x256x64x128.size a ≤ S1x256x64x128.size a
  h_S1x256x64x128 : 0 < S1x256x64x128.numel
  shapeCasts_S1x256x64x128_S256x64x128 : S1x256x64x128.ShapeCasts S256x64x128
  reduces_S256x64x128_S256x64 : S256x64x128.Reduces [2] S256x64
  shapeCasts_S256x64_S256x64x1 : S256x64.ShapeCasts S256x64x1
  broadcasts_S256x64x1_S256x64x128 : S256x64x1.Broadcasts S256x64x128
  inb_S128_S128_0 : ∀ a, (![0] : Fin 1 → Nat) a + S128.size a ≤ S128.size a
  h_S128 : 0 < S128.numel
  shapeCasts_S128_S1x1x128 : S128.ShapeCasts S1x1x128
  broadcasts_S1x1x128_S256x64x128 : S1x1x128.Broadcasts S256x64x128
  reduces_S256x64x128_S64x128 : S256x64x128.Reduces [0] S64x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128_S1x128 : S128.ShapeCasts S1x128
  broadcasts_S1x128_S64x128 : S1x128.Broadcasts S64x128
  inb_S64x128_S64x128_0_0 : ∀ a, (![0, 0] : Fin 2 → Nat) a + S64x128.size a ≤ S64x128.size a
  h_S64x128 : 0 < S64x128.numel
  shapeCasts_S128x128_S128x128 : S128x128.ShapeCasts S128x128
  shapeCasts_S128x128_S128x1x128 : S128x128.ShapeCasts S128x1x128
  shapeCasts_S128x1x128_S128x1x128 : S128x1x128.ShapeCasts S128x1x128
  broadcasts_S128x1x128_S128x128x128 : S128x1x128.Broadcasts S128x128x128
  shapeCasts_S128x128_S1x128x128 : S128x128.ShapeCasts S1x128x128
  shapeCasts_S1x128x128_S1x128x128 : S1x128x128.ShapeCasts S1x128x128
  broadcasts_S1x128x128_S128x128x128 : S1x128x128.Broadcasts S128x128x128
  broadcasts_S1x1x128_S128x128x128 : S1x1x128.Broadcasts S128x128x128
  inb_S128x128x128_S128x128x128_0_0_0 : ∀ a, (![0, 0, 0] : Fin 3 → Nat) a + S128x128x128.size a ≤ S128x128x128.size a
  h_S128x128x128 : 0 < S128x128x128.numel
  shapeCasts_S512x512x128_S1x512x512x128 : S512x512x128.ShapeCasts S1x512x512x128
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64x128.size a ≤ S1x256x512x128.size a
  hwx0_0 : ∀ i : grid0.Coords, EltTy.bits .f32 = 32 ∨ (Rect.block (s := S1x256x512x128) S1x256x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S512x128.size a
  hwx0_8 : ∀ i : grid0.Coords, EltTy.bits .f32 = 32 ∨ (Rect.block (s := S512x128) S64x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S512x128.size a
  hwx0_9 : ∀ i : grid0.Coords, EltTy.bits .f32 = 32 ∨ (Rect.block (s := S512x128) S64x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S512x128.size a
  hwx1_0 : ∀ i : grid1.Coords, EltTy.bits .f32 = 32 ∨ (Rect.block (s := S512x128) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S512x128.size a
  hwx1_1 : ∀ i : grid1.Coords, EltTy.bits .f32 = 32 ∨ (Rect.block (s := S512x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128x128.size a ≤ S512x512x128.size a
  hwx1_3 : ∀ i : grid1.Coords, EltTy.bits .f32 = 32 ∨ (Rect.block (s := S512x512x128) S128x128x128.size (cc1_transform_3 i) (hinb1_3 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S1x256x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S64x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S64x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v0_0) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S128x128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x256x512x128 : Shape := ⟨4, ![1, 256, 512, 128]⟩
abbrev S128 : Shape := ⟨1, ![128]⟩
abbrev S128x128 : Shape := ⟨2, ![128, 128]⟩
abbrev S_ : Shape := ⟨0, ![]⟩
abbrev S1x256x512 : Shape := ⟨3, ![1, 256, 512]⟩
abbrev S1x256x512x1 : Shape := ⟨4, ![1, 256, 512, 1]⟩
abbrev S1x1x1x128 : Shape := ⟨4, ![1, 1, 1, 128]⟩
abbrev S1x512x128 : Shape := ⟨3, ![1, 512, 128]⟩
abbrev S1x512x1x128 : Shape := ⟨4, ![1, 512, 1, 128]⟩
abbrev S1x1x512x128 : Shape := ⟨4, ![1, 1, 512, 128]⟩
abbrev S1x512x512x128 : Shape := ⟨4, ![1, 512, 512, 128]⟩

abbrev nBuf : Space → Nat
  | .hbm => 65
  | .vmem => 0
  | .smem => 0
  | _ => 0

abbrev bufTy : (tb : Table) → Fin (tcTables nBuf tb) → BufTy
  | .hbm, ⟨0, _⟩ => ⟨S1x256x512x128, .f32⟩
  | .hbm, ⟨1, _⟩ => ⟨S128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1x256x512, .f32⟩
  | .hbm, ⟨11, _⟩ => ⟨S1x256x512x1, .f32⟩
  | .hbm, ⟨12, _⟩ => ⟨S_, .f32⟩
  | .hbm, ⟨13, _⟩ => ⟨S1x256x512x1, .f32⟩
  | .hbm, ⟨14, _⟩ => ⟨S1x256x512x1, .f32⟩
  | .hbm, ⟨15, _⟩ => ⟨S1x256x512x128, .f32⟩
  | .hbm, ⟨16, _⟩ => ⟨S1x256x512x128, .f32⟩
  | .hbm, ⟨17, _⟩ => ⟨S1x256x512x128, .f32⟩
  | .hbm, ⟨18, _⟩ => ⟨S_, .f32⟩
  | .hbm, ⟨19, _⟩ => ⟨S1x256x512, .f32⟩
  | .hbm, ⟨20, _⟩ => ⟨S1x256x512x1, .f32⟩
  | .hbm, ⟨21, _⟩ => ⟨S_, .f32⟩
  | .hbm, ⟨22, _⟩ => ⟨S1x256x512x1, .f32⟩
  | .hbm, ⟨23, _⟩ => ⟨S1x256x512x1, .f32⟩
  | .hbm, ⟨24, _⟩ => ⟨S1x256x512x128, .f32⟩
  | .hbm, ⟨25, _⟩ => ⟨S1x256x512x128, .f32⟩
  | .hbm, ⟨26, _⟩ => ⟨S_, .f32⟩
  | .hbm, ⟨27, _⟩ => ⟨S1x256x512x1, .f32⟩
  | .hbm, ⟨28, _⟩ => ⟨S1x256x512x1, .f32⟩
  | .hbm, ⟨29, _⟩ => ⟨S1x256x512x1, .f32⟩
  | .hbm, ⟨30, _⟩ => ⟨S1x256x512x128, .f32⟩
  | .hbm, ⟨31, _⟩ => ⟨S1x256x512x128, .f32⟩
  | .hbm, ⟨32, _⟩ => ⟨S1x1x1x128, .f32⟩
  | .hbm, ⟨33, _⟩ => ⟨S1x256x512x128, .f32⟩
  | .hbm, ⟨34, _⟩ => ⟨S1x256x512x128, .f32⟩
  | .hbm, ⟨35, _⟩ => ⟨S1x1x1x128, .f32⟩
  | .hbm, ⟨36, _⟩ => ⟨S1x256x512x128, .f32⟩
  | .hbm, ⟨37, _⟩ => ⟨S1x256x512x128, .f32⟩
  | .hbm, ⟨38, _⟩ => ⟨S1x256x512x128, .f32⟩
  | .hbm, ⟨39, _⟩ => ⟨S1x1x1x128, .f32⟩
  | .hbm, ⟨40, _⟩ => ⟨S1x256x512x128, .f32⟩
  | .hbm, ⟨41, _⟩ => ⟨S1x256x512x128, .f32⟩
  | .hbm, ⟨42, _⟩ => ⟨S1x256x512x128, .f32⟩
  | .hbm, ⟨43, _⟩ => ⟨S1x1x1x128, .f32⟩
  | .hbm, ⟨44, _⟩ => ⟨S1x256x512x128, .f32⟩
  | .hbm, ⟨45, _⟩ => ⟨S1x256x512x128, .f32⟩
  | .hbm, ⟨46, _⟩ => ⟨S_, .f32⟩
  | .hbm, ⟨47, _⟩ => ⟨S1x512x128, .f32⟩
  | .hbm, ⟨48, _⟩ => ⟨S_, .f32⟩
  | .hbm, ⟨49, _⟩ => ⟨S1x512x128, .f32⟩
  | .hbm, ⟨50, _⟩ => ⟨S1x512x128, .f32⟩
  | .hbm, ⟨51, _⟩ => ⟨S_, .f32⟩
  | .hbm, ⟨52, _⟩ => ⟨S1x512x128, .f32⟩
  | .hbm, ⟨53, _⟩ => ⟨S_, .f32⟩
  | .hbm, ⟨54, _⟩ => ⟨S1x512x128, .f32⟩
  | .hbm, ⟨55, _⟩ => ⟨S1x512x128, .f32⟩
  | .hbm, ⟨56, _⟩ => ⟨S1x512x1x128, .f32⟩
  | .hbm, ⟨57, _⟩ => ⟨S1x1x512x128, .f32⟩
  | .hbm, ⟨58, _⟩ => ⟨S1x512x512x128, .f32⟩
  | .hbm, ⟨59, _⟩ => ⟨S1x512x512x128, .f32⟩
  | .hbm, ⟨60, _⟩ => ⟨S1x512x512x128, .f32⟩
  | .hbm, ⟨61, _⟩ => ⟨S1x512x512x128, .f32⟩
  | .hbm, ⟨62, _⟩ => ⟨S1x1x1x128, .f32⟩
  | .hbm, ⟨63, _⟩ => ⟨S1x512x512x128, .f32⟩
  | .hbm, ⟨64, _⟩ => ⟨S1x512x512x128, .f32⟩
  | _, _ => ⟨S1x256x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  reducesTo_S1x256x512x128_S1x256x512_d3 : S1x256x512x128.ReducesTo [3] S1x256x512
  h_S_ : 0 < S_.numel
  bcast_S1x256x512_S1x256x512x1_0_1_2 : S1x256x512.BroadcastsInDim S1x256x512x1 (![0, 1, 2] : Fin 3 → Fin S1x256x512x1.rank)
  bcast_S_S1x256x512x1 : S_.BroadcastsInDim S1x256x512x1 (![] : Fin 0 → Fin S1x256x512x1.rank)
  bcast_S1x256x512x1_S1x256x512x128_0_1_2_3 : S1x256x512x1.BroadcastsInDim S1x256x512x128 (![0, 1, 2, 3] : Fin 4 → Fin S1x256x512x128.rank)
  bcast_S128_S1x1x1x128_3 : S128.BroadcastsInDim S1x1x1x128 (![3] : Fin 1 → Fin S1x1x1x128.rank)
  bcast_S1x1x1x128_S1x256x512x128_0_1_2_3 : S1x1x1x128.BroadcastsInDim S1x256x512x128 (![0, 1, 2, 3] : Fin 4 → Fin S1x256x512x128.rank)
  reducesTo_S1x256x512x128_S1x512x128_d1 : S1x256x512x128.ReducesTo [1] S1x512x128
  bcast_S_S1x512x128 : S_.BroadcastsInDim S1x512x128 (![] : Fin 0 → Fin S1x512x128.rank)
  bcast_S1x512x128_S1x512x1x128_0_1_3 : S1x512x128.BroadcastsInDim S1x512x1x128 (![0, 1, 3] : Fin 3 → Fin S1x512x1x128.rank)
  bcast_S1x512x128_S1x1x512x128_0_2_3 : S1x512x128.BroadcastsInDim S1x1x512x128 (![0, 2, 3] : Fin 3 → Fin S1x1x512x128.rank)
  bcast_S1x512x1x128_S1x512x512x128_0_1_2_3 : S1x512x1x128.BroadcastsInDim S1x512x512x128 (![0, 1, 2, 3] : Fin 4 → Fin S1x512x512x128.rank)
  bcast_S1x1x512x128_S1x512x512x128_0_1_2_3 : S1x1x512x128.BroadcastsInDim S1x512x512x128 (![0, 1, 2, 3] : Fin 4 → Fin S1x512x512x128.rank)
  bcast_S1x1x1x128_S1x512x512x128_0_1_2_3 : S1x1x1x128.BroadcastsInDim S1x512x512x128 (![0, 1, 2, 3] : Fin 4 → Fin S1x512x512x128.rank)
  dot_S1x256x512x128_S128x128_S1x256x512x128_3_0_012_1_n_n_wf : DotDims.WF S1x256x512x128 S128x128 S1x256x512x128 [3] [0] [0, 1, 2] [1] [] []
  dot_S1x512x512x128_S128x128_S1x512x512x128_3_0_012_1_n_n_wf : DotDims.WF S1x512x512x128 S128x128 S1x512x512x128 [3] [0] [0, 1, 2] [1] [] []

variable [Facts₀]

def dot_S1x256x512x128_S128x128_S1x256x512x128_3_0_012_1_n_n : DotDims S1x256x512x128 S128x128 S1x256x512x128 where
  lhsContracting := [3]
  rhsContracting := [0]
  lhsNonContracting := [0, 1, 2]
  rhsNonContracting := [1]
  lhsBatch := []
  rhsBatch := []
  wf := dot_S1x256x512x128_S128x128_S1x256x512x128_3_0_012_1_n_n_wf
def dot_S1x512x512x128_S128x128_S1x512x512x128_3_0_012_1_n_n : DotDims S1x512x512x128 S128x128 S1x512x512x128 where
  lhsContracting := [3]
  rhsContracting := [0]
  lhsNonContracting := [0, 1, 2]
  rhsNonContracting := [1]
  lhsBatch := []
  rhsBatch := []
  wf := dot_S1x512x512x128_S128x128_S1x512x512x128_3_0_012_1_n_n_wf

class Facts : Prop extends Facts₀ where

variable [Facts]
-- ==== Proof.RowSpec.lean ====
/-
  The mathematics both programs compute, one output row at a time, on the extended reals.

  Fix a row index `i`. Its slab of the input is `xi m d` (m < 256 samples, d < 128 features). Each sample is
  layer-normalised over the features: `mu m` is the features' mean, `xc m d` the centred value, `var m` the mean of the
  squares, and `xn m d = xc m d · rsqrt (var m + ε) · g d + b d`.

  The kernel first averages the normalised samples over `m` (`meanRow`), projects the average through a weight
  matrix and adds a bias (`hidK`), and projects once more through the output weights (`outK`); its result at
  `(i, j, e)` is `outK` of row `i` through the left weights plus `outK` of row `j` through the right weights plus
  the output bias.  The reference projects every sample first, adds the bias, and only then averages over `m`
  (`hidR`); it adds row `i`'s left half to row `j`'s right half and projects the sum through the output weights.
  The two agree because the average over `m` and both projections are linear — on real numbers.

  The float literals stay as their bit patterns (`c128`, `c256`, `ceps`): the same word stands on both sides.
-/
import Idealize.ShloMosaic.PureOps.Ideal
import Idealize.ShloMosaic.Lib.ValueIdx

noncomputable section

open scoped BigOperators

namespace Cert.RowSpec

open Idealize.ShloMosaic Idealize.ShloMosaic.ValueIdx

/-- The feature count 128 as the programs write it. -/
abbrev c128 : EReal := Ideal.ofBits .f32 0x43000000#32
/-- The sample count 256 as the programs write it. -/
abbrev c256 : EReal := Ideal.ofBits .f32 0x43800000#32
/-- The variance offset ε as the programs write it. -/
abbrev ceps : EReal := Ideal.ofBits .f32 0x3727C5AC#32

/-- The mean of sample `m`'s features. -/
def mu (xi : Fin 256 → Fin 128 → EReal) (m : Fin 256) : EReal :=
  Ideal.div (∑ d : Fin 128, xi m d) c128

/-- Feature `d` of sample `m`, centred. -/
def xc (xi : Fin 256 → Fin 128 → EReal) (m : Fin 256) (d : Fin 128) : EReal :=
  xi m d - mu xi m

/-- The mean of sample `m`'s squared centred features. -/
def var (xi : Fin 256 → Fin 128 → EReal) (m : Fin 256) : EReal :=
  Ideal.div (∑ d : Fin 128, xc xi m d * xc xi m d) c128

/-- Sample `m` layer-normalised, scaled by `g` and shifted by `b`. -/
def xn (xi : Fin 256 → Fin 128 → EReal) (g b : Fin 128 → EReal) (m : Fin 256) (d : Fin 128) : EReal :=
  xc xi m d * Ideal.rsqrt (var xi m + ceps) * g d + b d

/-- The normalised samples averaged over `m`. -/
def meanRow (xi : Fin 256 → Fin 128 → EReal) (g b : Fin 128 → EReal) (d : Fin 128) : EReal :=
  Ideal.div (∑ m : Fin 256, xn xi g b m d) c256

/-- The kernel's hidden row: the averaged sample through `w`, plus `bias`. -/
def hidK (xi : Fin 256 → Fin 128 → EReal) (g b : Fin 128 → EReal) (w : Fin 128 → Fin 128 → EReal)
    (bias : Fin 128 → EReal) (h : Fin 128) : EReal :=
  (∑ d : Fin 128, meanRow xi g b d * w d h) + bias h

/-- The kernel's projected row: the hidden row through the output weights. -/
def outK (xi : Fin 256 → Fin 128 → EReal) (g b : Fin 128 → EReal) (w : Fin 128 → Fin 128 → EReal)
    (bias : Fin 128 → EReal) (wo : Fin 128 → Fin 128 → EReal) (e : Fin 128) : EReal :=
  ∑ h : Fin 128, hidK xi g b w bias h * wo h e

/-- The reference's hidden row: every sample through `w` plus `bias`, then averaged over `m`. -/
def hidR (xi : Fin 256 → Fin 128 → EReal) (g b : Fin 128 → EReal) (w : Fin 128 → Fin 128 → EReal)
    (bias : Fin 128 → EReal) (h : Fin 128) : EReal :=
  Ideal.div (∑ m : Fin 256, ((∑ d : Fin 128, xn xi g b m d * w d h) + bias h)) c256

/-! ## Arrays read by coordinates -/

/-- Row `i` of the input array as samples × features. -/
abbrev slab (x : (⟨4, ![1, 256, 512, 128]⟩ : Shape).Idx → EReal) (i : Fin 512) : Fin 256 → Fin 128 → EReal :=
  fun m d => x (ix4 (0 : Fin 1) m i d)
/-- A length-128 vector by its coordinate. -/
abbrev vec (v : (⟨1, ![128]⟩ : Shape).Idx → EReal) : Fin 128 → EReal := fun d => v (ix1 d)
/-- A 128 × 128 matrix by its coordinates. -/
abbrev mat (w : (⟨2, ![128, 128]⟩ : Shape).Idx → EReal) : Fin 128 → Fin 128 → EReal := fun a b => w (ix2 a b)

/-- The first kernel's output array: row by row, `outK` of the input's row through a weight matrix, a bias and the
    output weights. -/
def rowsK (x : (⟨4, ![1, 256, 512, 128]⟩ : Shape).Idx → EReal) (g b : (⟨1, ![128]⟩ : Shape).Idx → EReal)
    (w : (⟨2, ![128, 128]⟩ : Shape).Idx → EReal) (bias : (⟨1, ![128]⟩ : Shape).Idx → EReal)
    (wo : (⟨2, ![128, 128]⟩ : Shape).Idx → EReal) : (⟨2, ![512, 128]⟩ : Shape).Idx → EReal := fun j =>
  outK (slab x (j 0)) (vec g) (vec b) (mat w) (vec bias) (mat wo) (j 1)

/-- The second kernel's output array: at (i, j, e) the left array's (i, e) plus the right array's (j, e) plus the
    bias at e. -/
def pairSum (L R : (⟨2, ![512, 128]⟩ : Shape).Idx → EReal) (bo : (⟨1, ![128]⟩ : Shape).Idx → EReal) :
    (⟨3, ![512, 512, 128]⟩ : Shape).Idx → EReal := fun j =>
  L (ix2 (j 0) (j 2)) + R (ix2 (j 1) (j 2)) + bo (ix1 (j 2))

/-- The kernel's result array as a function of the nine argument arrays. -/
def resultK (x : (⟨4, ![1, 256, 512, 128]⟩ : Shape).Idx → EReal) (g b : (⟨1, ![128]⟩ : Shape).Idx → EReal)
    (wl : (⟨2, ![128, 128]⟩ : Shape).Idx → EReal) (bl : (⟨1, ![128]⟩ : Shape).Idx → EReal)
    (wr : (⟨2, ![128, 128]⟩ : Shape).Idx → EReal) (br : (⟨1, ![128]⟩ : Shape).Idx → EReal)
    (wo : (⟨2, ![128, 128]⟩ : Shape).Idx → EReal) (bo : (⟨1, ![128]⟩ : Shape).Idx → EReal) :
    (⟨4, ![1, 512, 512, 128]⟩ : Shape).Idx → EReal := fun j =>
  outK (slab x (j 1)) (vec g) (vec b) (mat wl) (vec bl) (mat wo) (j 3)
    + outK (slab x (j 2)) (vec g) (vec b) (mat wr) (vec br) (mat wo) (j 3) + vec bo (j 3)

/-- The reference's result array as a function of the nine argument arrays. -/
def resultR (x : (⟨4, ![1, 256, 512, 128]⟩ : Shape).Idx → EReal) (g b : (⟨1, ![128]⟩ : Shape).Idx → EReal)
    (wl : (⟨2, ![128, 128]⟩ : Shape).Idx → EReal) (bl : (⟨1, ![128]⟩ : Shape).Idx → EReal)
    (wr : (⟨2, ![128, 128]⟩ : Shape).Idx → EReal) (br : (⟨1, ![128]⟩ : Shape).Idx → EReal)
    (wo : (⟨2, ![128, 128]⟩ : Shape).Idx → EReal) (bo : (⟨1, ![128]⟩ : Shape).Idx → EReal) :
    (⟨4, ![1, 512, 512, 128]⟩ : Shape).Idx → EReal := fun j =>
  (∑ h : Fin 128, (hidR (slab x (j 1)) (vec g) (vec b) (mat wl) (vec bl) h
      + hidR (slab x (j 2)) (vec g) (vec b) (mat wr) (vec br) h) * mat wo h (j 3)) + vec bo (j 3)

end Cert.RowSpec

end
-- ==== Proof.RowBody.lean ====
/-
  One grid point of the first kernel, read at an element. The point loads a slab of 64 rows of the input (all 256
  samples, all 128 features), normalises every sample, averages over the samples, projects through the left (or right)
  weights, adds the bias, and projects through the output weights. Element (p, q) of the block it stores is therefore the
  row function `outK` of row p of the slab, at column q.
-/
import proofs.«159848_j1915555414566_1_alg».proof.Proof.RowSpec
import proofs.«159848_j1915555414566_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RowBody

open Cert.KernelIdeal Cert.KernelIdeal.Gen Cert.RowSpec Idealize.ShloMosaic Idealize.ShloMosaic.ValueIdx

/-- The lane sum of a [256, 64, 128] array at (m, p): the sum over the lane coordinate. -/
private theorem sum_lane (src : FVec Ideal S256x64x128 .f32) (m : Fin 256) (p : Fin 64) :
    multiReduction (F := Ideal) .add [2] S256x64 src 0x00000000#32 reduces_S256x64x128_S256x64 (.inl rfl) rfl (ix2 m p)
      = ∑ d : Fin 128, src (ix3 m p d) := by
  refine (Ideal.multiReduction_add_single src _ reduces_S256x64x128_S256x64 _ _ (ix2 m p)).trans ?_
  refine Finset.sum_congr rfl fun d _ => congrArg src ?_
  funext a
  match a with
  | ⟨0, _⟩ => rfl
  | ⟨1, _⟩ => rfl
  | ⟨2, _⟩ => rfl

/-- The sum over samples of a [256, 64, 128] array at (p, d). -/
private theorem sum_samples (src : FVec Ideal S256x64x128 .f32) (p : Fin 64) (d : Fin 128) :
    multiReduction (F := Ideal) .add [0] S64x128 src 0x00000000#32 reduces_S256x64x128_S64x128 (.inl rfl) rfl (ix2 p d)
      = ∑ m : Fin 256, src (ix3 m p d) := by
  refine (Ideal.multiReduction_add_single src _ reduces_S256x64x128_S64x128 _ _ (ix2 p d)).trans ?_
  refine Finset.sum_congr rfl fun m _ => congrArg src ?_
  funext a
  match a with
  | ⟨0, _⟩ => rfl
  | ⟨1, _⟩ => rfl
  | ⟨2, _⟩ => rfl

/-- A [256, 64] array viewed [256, 64, 1] reads, at (m, p, u), the array at (m, p). -/
private theorem cast_col {α : Type} (x : S256x64.Idx → α) (m : Fin 256) (p : Fin 64) (u : Fin 1) :
    shapeCast S256x64x1 x shapeCasts_S256x64_S256x64x1 (ix3 m p u) = x (ix2 m p) :=
  shapeCast_apply x _ _ _ (by
    have hu : u.val = 0 := by omega
    rw [Shape.rowMajor_val_three, Shape.rowMajor_val_two]
    show m.val * 64 + p.val = (m.val * 64 + p.val) * 1 + u.val
    rw [hu, Nat.mul_one, Nat.add_zero])

/-- A [256, 64, 1] column broadcast along the lanes reads, at (m, p, d), the column at (m, p, 0). -/
private theorem bcast_col {α : Type} (x : S256x64x1.Idx → α) (m : Fin 256) (p : Fin 64) (d : Fin 128) :
    broadcastTo S256x64x128 x broadcasts_S256x64x1_S256x64x128 (ix3 m p d) = x (ix3 m p (0 : Fin 1)) := by
  refine broadcastTo_apply x _ (ix3 m p d) (ix3 m p (0 : Fin 1)) fun ax => ?_
  match ax with
  | ⟨0, _⟩ => rfl
  | ⟨1, _⟩ => rfl
  | ⟨2, _⟩ => rfl

/-- A length-128 vector viewed [1, 1, 128] and broadcast over samples and rows reads, at (m, p, d), the vector at d. -/
private theorem bcast_lane {α : Type} (x : S128.Idx → α) (m : Fin 256) (p : Fin 64) (d : Fin 128) :
    broadcastTo S256x64x128 (shapeCast S1x1x128 x shapeCasts_S128_S1x1x128) broadcasts_S1x1x128_S256x64x128 (ix3 m p d)
      = x (ix1 d) := by
  refine (broadcastTo_apply _ _ (ix3 m p d) (ix3 (0 : Fin 1) (0 : Fin 1) d) fun ax => ?_).trans ?_
  · match ax with
    | ⟨0, _⟩ => rfl
    | ⟨1, _⟩ => rfl
    | ⟨2, _⟩ => rfl
  · exact shapeCast_apply x _ _ _ (by
      rw [Shape.rowMajor_val_three, Shape.rowMajor_val_one]
      show d.val = (0 * 1 + 0) * 128 + d.val
      omega)

/-- A length-128 vector viewed [1, 128] and broadcast over rows reads, at (p, h), the vector at h. -/
private theorem bcast_row {α : Type} (x : S128.Idx → α) (p : Fin 64) (h : Fin 128) :
    broadcastTo S64x128 (shapeCast S1x128 x shapeCasts_S128_S1x128) broadcasts_S1x128_S64x128 (ix2 p h) = x (ix1 h) :=
  (broadcastTo_1b_ab_apply _ _ p h).trans (shapeCast_a_1a_apply x _ (0 : Fin 1) h)

/-- The [1, 256, 64, 128] slab viewed [256, 64, 128] reads, at (m, p, d), the slab at (0, m, p, d). -/
private theorem cast_slab {α : Type} (x : S1x256x64x128.Idx → α) (m : Fin 256) (p : Fin 64) (d : Fin 128) :
    shapeCast S256x64x128 x shapeCasts_S1x256x64x128_S256x64x128 (ix3 m p d) = x (ix4 (0 : Fin 1) m p d) :=
  shapeCast_1abc_abc_apply x _ m p d

/-! ## The product's operand indices, axis by axis -/

private theorem lhs_mm_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
private theorem lhs_mm_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
private theorem rhs_mm_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
private theorem rhs_mm_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- A [64, 128] × [128, 128] product into the zero array reads, at (p, q), the sum over k of left (p, k) times right (k, q). -/
private theorem mm_apply {φ₁ φ₂ : FTy} (lhs : FVec Ideal S64x128 φ₁) (rhs : FVec Ideal S128x128 φ₂) (p : Fin 64) (q : Fin 128) :
    matmul dot_S64x128_S128x128_S64x128_1_0_0_1_n_n none lhs rhs (constant (F := Ideal) S64x128 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S64x128_S128x128_S64x128_1_0_0_1_n_n 128 rfl rfl).symm]
  refine Finset.sum_congr rfl fun k _ => ?_
  have hk := ValueIdx.contrEquiv1_symm_val dot_S64x128_S128x128_S64x128_1_0_0_1_n_n 128 rfl rfl k
  have el : dot_S64x128_S128x128_S64x128_1_0_0_1_n_n.lhsIdx (ix2 p q) ((ValueIdx.contrEquiv1 dot_S64x128_S128x128_S64x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S64x128_S128x128_S64x128_1_0_0_1_n_n.rhsIdx (ix2 p q) ((ValueIdx.contrEquiv1 dot_S64x128_S128x128_S64x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-! ## The normalisation of one slab -/

/-- The kernel's lane mean of a [256, 64, 128] array, kept as a [256, 64, 1] column. -/
private def kmean (X : FVec Ideal S256x64x128 .f32) : FVec Ideal S256x64x1 .f32 :=
  divf (shapeCast S256x64x1 (multiReduction (F := Ideal) .add [2] S256x64 X 0x00000000#32 reduces_S256x64x128_S256x64 (.inl rfl) rfl) shapeCasts_S256x64_S256x64x1)
    (broadcast S256x64x1 (Scalar.ofBits (F := Ideal) .f32 0x43000000#32))

private theorem kmean_apply (X : FVec Ideal S256x64x128 .f32) (m : Fin 256) (p : Fin 64) (u : Fin 1) :
    kmean X (ix3 m p u) = Ideal.div (∑ d : Fin 128, X (ix3 m p d)) c128 := by
  unfold kmean
  refine (divf_apply _ _ _).trans ?_
  exact congrArg (fun z => Ideal.div z c128) ((cast_col _ m p u).trans (sum_lane X m p))

/-- The array centred by its lane mean. -/
private def kcen (X : FVec Ideal S256x64x128 .f32) : FVec Ideal S256x64x128 .f32 :=
  subf X (broadcastTo S256x64x128 (kmean X) broadcasts_S256x64x1_S256x64x128)

private theorem kcen_apply (X : FVec Ideal S256x64x128 .f32) (m : Fin 256) (p : Fin 64) (d : Fin 128) :
    kcen X (ix3 m p d) = xc (fun m d => X (ix3 m p d)) m d := by
  unfold kcen
  refine (subf_apply _ _ _).trans ?_
  exact congrArg (fun z => X (ix3 m p d) - z) ((bcast_col _ m p d).trans (kmean_apply X m p 0))

private theorem kvar_apply (X : FVec Ideal S256x64x128 .f32) (m : Fin 256) (p : Fin 64) (u : Fin 1) :
    kmean (mulf (kcen X) (kcen X)) (ix3 m p u) = var (fun m d => X (ix3 m p d)) m := by
  refine (kmean_apply _ m p u).trans ?_
  show _ = Ideal.div (∑ d : Fin 128, xc (fun m d => X (ix3 m p d)) m d * xc (fun m d => X (ix3 m p d)) m d) c128
  refine congrArg (fun z => Ideal.div z c128) (Finset.sum_congr rfl fun d _ => ?_)
  refine (mulf_apply _ _ _).trans ?_
  rw [kcen_apply]

/-- The array normalised along the lanes, scaled and shifted. -/
private def kln (X : FVec Ideal S256x64x128 .f32) (g b : Vec Ideal S128 .f32) : FVec Ideal S256x64x128 .f32 :=
  addf (mulf (mulf (kcen X) (broadcastTo S256x64x128 (rsqrt (addf (kmean (mulf (kcen X) (kcen X))) (broadcast S256x64x1 (Scalar.ofBits (F := Ideal) .f32 0x3727C5AC#32)))) broadcasts_S256x64x1_S256x64x128))
      (broadcastTo S256x64x128 (shapeCast S1x1x128 g shapeCasts_S128_S1x1x128) broadcasts_S1x1x128_S256x64x128))
    (broadcastTo S256x64x128 (shapeCast S1x1x128 b shapeCasts_S128_S1x1x128) broadcasts_S1x1x128_S256x64x128)

private theorem kln_apply (X : FVec Ideal S256x64x128 .f32) (g b : Vec Ideal S128 .f32) (m : Fin 256) (p : Fin 64) (d : Fin 128) :
    kln X g b (ix3 m p d) = xn (fun m d => X (ix3 m p d)) (vec g) (vec b) m d := by
  unfold kln
  refine (addf_apply _ _ _).trans ?_
  refine congrArg₂ (· + ·) ?_ (bcast_lane b m p d)
  refine (mulf_apply _ _ _).trans ?_
  refine congrArg₂ (· * ·) ?_ (bcast_lane g m p d)
  refine (mulf_apply _ _ _).trans ?_
  refine congrArg₂ (· * ·) (kcen_apply X m p d) ?_
  refine (bcast_col _ m p d).trans ?_
  exact congrArg (fun z => Ideal.rsqrt (z + ceps)) (kvar_apply X m p 0)

/-- The third payload spelt over the pieces above. -/
private theorem pay3_eq (v0 : Vec Ideal S1x256x64x128 .f32) (v18 v22 : Vec Ideal S128 .f32) :
    k0_pay3 (F := Ideal) v0 v18 v22
      = truncf .bf16 (divf (multiReduction (F := Ideal) .add [0] S64x128
          (kln (shapeCast S256x64x128 v0 shapeCasts_S1x256x64x128_S256x64x128) v18 v22) 0x00000000#32 reduces_S256x64x128_S64x128 (.inl rfl) rfl)
          (broadcast S64x128 (Scalar.ofBits (F := Ideal) .f32 0x43800000#32))) bitsLt_bf16_f32 := rfl

/-- Row p of the slab, normalised and averaged over the samples, at feature d. -/
private theorem pay3_apply (v0 : Vec Ideal S1x256x64x128 .f32) (v18 v22 : Vec Ideal S128 .f32) (p : Fin 64) (d : Fin 128) :
    k0_pay3 (F := Ideal) v0 v18 v22 (ix2 p d)
      = meanRow (fun m d' => v0 (ix4 (0 : Fin 1) m p d')) (vec v18) (vec v22) d := by
  rw [pay3_eq]
  refine (truncf_apply (ψ := .bf16) (φ := .f32) _ bitsLt_bf16_f32 (ix2 p d)).trans ?_
  refine (divf_apply _ _ _).trans ?_
  refine congrArg (fun z => Ideal.div z c256) ?_
  refine (sum_samples _ p d).trans ?_
  refine Finset.sum_congr rfl fun m _ => ?_
  refine (kln_apply _ v18 v22 m p d).trans ?_
  exact congrArg (fun xi => xn xi (vec v18) (vec v22) m d) (funext fun m => funext fun d => cast_slab v0 m p d)

/-! ## The two projections -/

/-- Rows through a weight matrix plus a bias, then through the output weights: at (p, q), the sum over h of the hidden
    row at h times the output weight (h, q). -/
private theorem proj_apply (lhs : FVec Ideal S64x128 .bf16) (w : FVec Ideal S128x128 .bf16) (bias : FVec Ideal S128 .f32)
    (wo : FVec Ideal S128x128 .bf16) (p : Fin 64) (q : Fin 128) :
    matmul dot_S64x128_S128x128_S64x128_1_0_0_1_n_n none
        (truncf .bf16 (addf (matmul dot_S64x128_S128x128_S64x128_1_0_0_1_n_n none lhs w (constant (F := Ideal) S64x128 .f32 0x00000000#32))
          (broadcastTo S64x128 (shapeCast S1x128 bias shapeCasts_S128_S1x128) broadcasts_S1x128_S64x128)) bitsLt_bf16_f32)
        wo (constant (F := Ideal) S64x128 .f32 0x00000000#32) (ix2 p q)
      = ∑ h : Fin 128, ((∑ d : Fin 128, lhs (ix2 p d) * w (ix2 d h)) + bias (ix1 h)) * wo (ix2 h q) := by
  refine (mm_apply _ wo p q).trans ?_
  refine Finset.sum_congr rfl fun h _ => ?_
  refine congrArg (fun z => z * wo (ix2 h q)) ?_
  refine (truncf_apply (ψ := .bf16) (φ := .f32) _ bitsLt_bf16_f32 (ix2 p h)).trans ?_
  refine (addf_apply _ _ _).trans ?_
  exact congrArg₂ (· + ·) (mm_apply lhs w p h) (bcast_row bias p h)

/-- The row function from the normalised, averaged rows. -/
private theorem outK_of_pay3 (x0 : Vec Ideal S1x256x64x128 .f32) (x1 x2 : Vec Ideal S128 .f32) (w : Vec Ideal S128x128 .f32)
    (bias : Vec Ideal S128 .f32) (wo : Vec Ideal S128x128 .f32) (p : Fin 64) (q : Fin 128) :
    (∑ h : Fin 128, ((∑ d : Fin 128, k0_pay3 (F := Ideal) x0 x1 x2 (ix2 p d) * w (ix2 d h)) + bias (ix1 h)) * wo (ix2 h q))
      = outK (fun m d => x0 (ix4 (0 : Fin 1) m p d)) (vec x1) (vec x2) (mat w) (vec bias) (mat wo) q := by
  unfold outK hidK
  refine Finset.sum_congr rfl fun h _ => ?_
  refine congrArg (fun z => (z + bias (ix1 h)) * wo (ix2 h q)) ?_
  refine Finset.sum_congr rfl fun d _ => ?_
  exact congrArg (fun z => z * w (ix2 d h)) (pay3_apply x0 x1 x2 p d)

private theorem hz1 : (![0] : Fin 1 → Nat) = fun _ => 0 := funext fun a => by fin_cases a <;> rfl
private theorem hz2 : (![0, 0] : Fin 2 → Nat) = fun _ => 0 := funext fun a => by fin_cases a <;> rfl
private theorem hz4 : (![0, 0, 0, 0] : Fin 4 → Nat) = fun _ => 0 := funext fun a => by fin_cases a <;> rfl

/-- Element (p, q) of the block the left projection stores: row p of the loaded slab through the left weights. -/
theorem out0_8_apply (x0 : Vec Ideal S1x256x64x128 .f32) (x1 x2 : Vec Ideal S128 .f32) (x3 : Vec Ideal S128x128 .f32)
    (x4 : Vec Ideal S128 .f32) (x5 : Vec Ideal S128x128 .f32) (x6 : Vec Ideal S128 .f32) (x7 : Vec Ideal S128x128 .f32)
    (p : Fin 64) (q : Fin 128) :
    out0_8 (F := Ideal) x0 x1 x2 x3 x4 x5 x6 x7 (ix2 p q)
      = outK (fun m d => x0 (ix4 (0 : Fin 1) m p d)) (vec x1) (vec x2) (mat x3) (vec x4) (mat x7) q := by
  unfold out0_8
  rw [View.canon_unit_zero hz2]
  simp only [View.ld_unit_zero (S := S128x128) hz2, View.ld_unit_zero (S := S128) hz1, View.ld_unit_zero (S := S1x256x64x128) hz4]
  refine (proj_apply (k0_pay3 (F := Ideal) x0 x1 x2) (truncf .bf16 x3 bitsLt_bf16_f32) x4 (truncf .bf16 x7 bitsLt_bf16_f32) p q).trans ?_
  exact outK_of_pay3 x0 x1 x2 x3 x4 x7 p q

/-- Element (p, q) of the block the right projection stores: row p of the loaded slab through the right weights. -/
theorem out0_9_apply (x0 : Vec Ideal S1x256x64x128 .f32) (x1 x2 : Vec Ideal S128 .f32) (x3 : Vec Ideal S128x128 .f32)
    (x4 : Vec Ideal S128 .f32) (x5 : Vec Ideal S128x128 .f32) (x6 : Vec Ideal S128 .f32) (x7 : Vec Ideal S128x128 .f32)
    (p : Fin 64) (q : Fin 128) :
    out0_9 (F := Ideal) x0 x1 x2 x3 x4 x5 x6 x7 (ix2 p q)
      = outK (fun m d => x0 (ix4 (0 : Fin 1) m p d)) (vec x1) (vec x2) (mat x5) (vec x6) (mat x7) q := by
  unfold out0_9
  rw [View.canon_unit_zero hz2]
  simp only [View.ld_unit_zero (S := S128x128) hz2, View.ld_unit_zero (S := S128) hz1, View.ld_unit_zero (S := S1x256x64x128) hz4]
  refine (proj_apply (k0_pay3 (F := Ideal) x0 x1 x2) (truncf .bf16 x5 bitsLt_bf16_f32) x6 (truncf .bf16 x7 bitsLt_bf16_f32) p q).trans ?_
  exact outK_of_pay3 x0 x1 x2 x5 x6 x7 p q

end Cert.KernelIdeal.RowBody

end
-- ==== Proof.RowArrays.lean ====
/-
  The first kernel's two output arrays after its eight grid points. Point t loads rows 64·t … 64·t + 63 of the input
  and stores the same rows of each output, so the blocks tile the 512 rows and every row of an output array is the row
  function `outK` of the same row of the input, whatever the contents `V` the region is entered with.
-/
import proofs.«159848_j1915555414566_1_alg».proof.Proof.RowBody

set_option maxRecDepth 16384

noncomputable section

open scoped BigOperators

namespace Cert.KernelIdeal.RowArrays

open Cert.KernelIdeal Cert.KernelIdeal.Gen Cert.RowSpec Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: the input's and both outputs' blocks move along the row axis with the
    point, every other block index is zero. -/
private theorem idx_facts : ∀ t : Fin cfg0.N,
    win0_0.index t (0 : Fin 4) = 0 ∧ win0_0.index t (1 : Fin 4) = 0 ∧ win0_0.index t (2 : Fin 4) = t.val
    ∧ win0_0.index t (3 : Fin 4) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- A point is one of eight. -/
private theorem point_lt (t : Fin cfg0.N) : t.val < 8 := by
  have h := t.isLt
  have hN : cfg0.N = 8 := N_0
  omega

/-- The input window's block at point t is rows 64·t … 64·t + 63 of the input. -/
private theorem slab_block (c : Dev nD) (t : Fin cfg0.N) (m : Fin 256) (p : Fin 64) (d : Fin 128) (r : Fin 512)
    (hr : r.val = 64 * t.val + p.val) :
    (iblk0 (F := Ideal) V c 0 t : Vec Ideal S1x256x64x128 .f32) (ix4 (0 : Fin 1) m p d)
      = (V c main_arg0 : S1x256x512x128.Idx → EReal) (ix4 (0 : Fin 1) m r d) := by
  obtain ⟨e0, e1, e2, e3, -⟩ := idx_facts t
  unfold iblk0
  rw [View.read_apply]
  show V c main_arg0 _ = V c main_arg0 _
  congr 1
  funext a
  apply Fin.ext
  match a with
  | ⟨0, _⟩ => show win0_0.index t (0 : Fin 4) * 1 + 1 * 0 = 0; omega
  | ⟨1, _⟩ => show win0_0.index t (1 : Fin 4) * 256 + 1 * m.val = m.val; omega
  | ⟨2, _⟩ => show win0_0.index t (2 : Fin 4) * 64 + 1 * p.val = r.val; omega
  | ⟨3, _⟩ => show win0_0.index t (3 : Fin 4) * 128 + 1 * d.val = d.val; omega

/-- A whole-array vector window's block is its array (γ). -/
private theorem gamma_block (c : Dev nD) (t : Fin cfg0.N) (d : Fin 128) :
    (iblk0 (F := Ideal) V c 1 t : Vec Ideal S128 .f32) (ix1 d) = (V c main_arg1 : S128.Idx → EReal) (ix1 d) := by
  obtain ⟨-, -, -, -, e, -⟩ := idx_facts t
  unfold iblk0
  rw [View.read_apply]
  show V c main_arg1 _ = V c main_arg1 _
  congr 1
  funext a
  apply Fin.ext
  match a with
  | ⟨0, _⟩ => show win0_1.index t (0 : Fin 1) * 128 + 1 * d.val = d.val; omega

/-- A whole-array vector window's block is its array (β). -/
private theorem beta_block (c : Dev nD) (t : Fin cfg0.N) (d : Fin 128) :
    (iblk0 (F := Ideal) V c 2 t : Vec Ideal S128 .f32) (ix1 d) = (V c main_arg2 : S128.Idx → EReal) (ix1 d) := by
  obtain ⟨-, -, -, -, -, e, -⟩ := idx_facts t
  unfold iblk0
  rw [View.read_apply]
  show V c main_arg2 _ = V c main_arg2 _
  congr 1
  funext a
  apply Fin.ext
  match a with
  | ⟨0, _⟩ => show win0_2.index t (0 : Fin 1) * 128 + 1 * d.val = d.val; omega

/-- The left weights' block is the whole matrix. -/
private theorem wl_block (c : Dev nD) (t : Fin cfg0.N) (a b : Fin 128) :
    (iblk0 (F := Ideal) V c 3 t : Vec Ideal S128x128 .f32) (ix2 a b) = (V c main_arg3 : S128x128.Idx → EReal) (ix2 a b) := by
  obtain ⟨-, -, -, -, -, -, e0, e1, -⟩ := idx_facts t
  unfold iblk0
  rw [View.read_apply]
  show V c main_arg3 _ = V c main_arg3 _
  congr 1
  funext x
  apply Fin.ext
  match x with
  | ⟨0, _⟩ => show win0_3.index t (0 : Fin 2) * 128 + 1 * a.val = a.val; omega
  | ⟨1, _⟩ => show win0_3.index t (1 : Fin 2) * 128 + 1 * b.val = b.val; omega

/-- The left bias's block is the whole vector. -/
private theorem bl_block (c : Dev nD) (t : Fin cfg0.N) (d : Fin 128) :
    (iblk0 (F := Ideal) V c 4 t : Vec Ideal S128 .f32) (ix1 d) = (V c main_arg4 : S128.Idx → EReal) (ix1 d) := by
  obtain ⟨-, -, -, -, -, -, -, -, e, -⟩ := idx_facts t
  unfold iblk0
  rw [View.read_apply]
  show V c main_arg4 _ = V c main_arg4 _
  congr 1
  funext a
  apply Fin.ext
  match a with
  | ⟨0, _⟩ => show win0_4.index t (0 : Fin 1) * 128 + 1 * d.val = d.val; omega

/-- The right weights' block is the whole matrix. -/
private theorem wr_block (c : Dev nD) (t : Fin cfg0.N) (a b : Fin 128) :
    (iblk0 (F := Ideal) V c 5 t : Vec Ideal S128x128 .f32) (ix2 a b) = (V c main_arg5 : S128x128.Idx → EReal) (ix2 a b) := by
  obtain ⟨-, -, -, -, -, -, -, -, -, e0, e1, -⟩ := idx_facts t
  unfold iblk0
  rw [View.read_apply]
  show V c main_arg5 _ = V c main_arg5 _
  congr 1
  funext x
  apply Fin.ext
  match x with
  | ⟨0, _⟩ => show win0_5.index t (0 : Fin 2) * 128 + 1 * a.val = a.val; omega
  | ⟨1, _⟩ => show win0_5.index t (1 : Fin 2) * 128 + 1 * b.val = b.val; omega

/-- The right bias's block is the whole vector. -/
private theorem br_block (c : Dev nD) (t : Fin cfg0.N) (d : Fin 128) :
    (iblk0 (F := Ideal) V c 6 t : Vec Ideal S128 .f32) (ix1 d) = (V c main_arg6 : S128.Idx → EReal) (ix1 d) := by
  obtain ⟨-, -, -, -, -, -, -, -, -, -, -, e, -⟩ := idx_facts t
  unfold iblk0
  rw [View.read_apply]
  show V c main_arg6 _ = V c main_arg6 _
  congr 1
  funext a
  apply Fin.ext
  match a with
  | ⟨0, _⟩ => show win0_6.index t (0 : Fin 1) * 128 + 1 * d.val = d.val; omega

/-- The output weights' block is the whole matrix. -/
private theorem wo_block (c : Dev nD) (t : Fin cfg0.N) (a b : Fin 128) :
    (iblk0 (F := Ideal) V c 7 t : Vec Ideal S128x128 .f32) (ix2 a b) = (V c main_arg7 : S128x128.Idx → EReal) (ix2 a b) := by
  obtain ⟨-, -, -, -, -, -, -, -, -, -, -, -, e0, e1, -⟩ := idx_facts t
  unfold iblk0
  rw [View.read_apply]
  show V c main_arg7 _ = V c main_arg7 _
  congr 1
  funext x
  apply Fin.ext
  match x with
  | ⟨0, _⟩ => show win0_7.index t (0 : Fin 2) * 128 + 1 * a.val = a.val; omega
  | ⟨1, _⟩ => show win0_7.index t (1 : Fin 2) * 128 + 1 * b.val = b.val; omega

/-- Element (p, q) of the left output's block at point t is element (64·t + p, q) of the array. -/
private theorem left_emb (t : Fin cfg0.N) (p : Fin 64) (q : Fin 128) (r : Fin 512) (hr : r.val = 64 * t.val + p.val) :
    ((cfg0.win 8).blk t).view.emb (ix2 p q) = (ix2 r q : S512x128.Idx) := by
  obtain ⟨-, -, -, -, -, -, -, -, -, -, -, -, -, -, e0, e1, -⟩ := idx_facts t
  funext a
  apply Fin.ext
  match a with
  | ⟨0, _⟩ => show win0_8.index t (0 : Fin 2) * 64 + 1 * p.val = r.val; omega
  | ⟨1, _⟩ => show win0_8.index t (1 : Fin 2) * 128 + 1 * q.val = q.val; omega

/-- Element (p, q) of the right output's block at point t is element (64·t + p, q) of the array. -/
private theorem right_emb (t : Fin cfg0.N) (p : Fin 64) (q : Fin 128) (r : Fin 512) (hr : r.val = 64 * t.val + p.val) :
    ((cfg0.win 9).blk t).view.emb (ix2 p q) = (ix2 r q : S512x128.Idx) := by
  obtain ⟨-, -, -, -, -, -, -, -, -, -, -, -, -, -, -, -, e0, e1⟩ := idx_facts t
  funext a
  apply Fin.ext
  match a with
  | ⟨0, _⟩ => show win0_9.index t (0 : Fin 2) * 64 + 1 * p.val = r.val; omega
  | ⟨1, _⟩ => show win0_9.index t (1 : Fin 2) * 128 + 1 * q.val = q.val; omega

/-- What point t writes back to the left output is block t of the row-by-row array. -/
private theorem left_flushed (c : Dev nD) (t : Fin cfg0.N) :
    (dat0 (F := Ideal) V c).flushed 8 t = ((cfg0.win 8).blk t).view.read (Elt Ideal)
      (rowsK (V c main_arg0) (V c main_arg1) (V c main_arg2) (V c main_arg3) (V c main_arg4) (V c main_arg7)) := by
  show (cfg0.win 8).cut (grid0.coords t) ((dat0 V c).after 8 t) = _
  rw [after0_8]
  funext y
  obtain ⟨p, q, rfl⟩ : ∃ (p : Fin 64) (q : Fin 128), y = ix2 p q := ⟨y 0, y 1, eq_ix2 y⟩
  have ht := point_lt t
  have hr : (⟨64 * t.val + p.val, by omega⟩ : Fin 512).val = 64 * t.val + p.val := rfl
  refine (RowBody.out0_8_apply (iblk0 V c 0 t) (iblk0 V c 1 t) (iblk0 V c 2 t) (iblk0 V c 3 t) (iblk0 V c 4 t)
    (iblk0 V c 5 t) (iblk0 V c 6 t) (iblk0 V c 7 t) p q).trans ?_
  rw [View.read_apply, left_emb t p q ⟨64 * t.val + p.val, by omega⟩ hr]
  have h0 : (fun (m : Fin 256) (d : Fin 128) => (iblk0 (F := Ideal) V c 0 t : Vec Ideal S1x256x64x128 .f32) (ix4 (0 : Fin 1) m p d))
      = slab (V c main_arg0) ⟨64 * t.val + p.val, by omega⟩ :=
    funext fun m => funext fun d => slab_block V c t m p d ⟨64 * t.val + p.val, by omega⟩ hr
  have h1 : vec (iblk0 (F := Ideal) V c 1 t : Vec Ideal S128 .f32) = vec (V c main_arg1) :=
    funext fun d => gamma_block V c t d
  have h2 : vec (iblk0 (F := Ideal) V c 2 t : Vec Ideal S128 .f32) = vec (V c main_arg2) :=
    funext fun d => beta_block V c t d
  have h3 : mat (iblk0 (F := Ideal) V c 3 t : Vec Ideal S128x128 .f32) = mat (V c main_arg3) :=
    funext fun a => funext fun b => wl_block V c t a b
  have h4 : vec (iblk0 (F := Ideal) V c 4 t : Vec Ideal S128 .f32) = vec (V c main_arg4) :=
    funext fun d => bl_block V c t d
  have h7 : mat (iblk0 (F := Ideal) V c 7 t : Vec Ideal S128x128 .f32) = mat (V c main_arg7) :=
    funext fun a => funext fun b => wo_block V c t a b
  rw [h0, h1, h2, h3, h4, h7]
  rfl

/-- An index of the left output is in point t's block iff each coordinate is in the block's range on its axis. -/
private theorem left_mem (t : Fin cfg0.N) (i : S512x128.Idx) :
    i ∈ ((cfg0.win 8).blk t).view.set ↔ ∀ a : Fin 2, win0_8.index t a * S64x128.size a ≤ (i a).val
      ∧ (i a).val < win0_8.index t a * S64x128.size a + S64x128.size a := by
  show i ∈ ((View.whole main_v0_0).slice (win0_8.rect t)).set ↔ _
  rw [View.set_slice_whole, Rect.mem_set_unit]
  exact Iff.rfl

/-- Row r of the left output is in the block of point r / 64, which writes back. -/
private theorem left_cover (i : S512x128.Idx) :
    ∃ t : Fin cfg0.N, (cfg0.win 8).flush t = true ∧ i ∈ ((cfg0.win 8).blk t).view.set := by
  have hi0 : (i 0).val < 512 := (i 0).isLt
  have hi1 : (i 1).val < 128 := (i 1).isLt
  have hN : cfg0.N = 8 := N_0
  obtain ⟨t, ht⟩ : ∃ t : Fin cfg0.N, t.val = (i 0).val / 64 := ⟨⟨(i 0).val / 64, by omega⟩, rfl⟩
  obtain ⟨-, -, -, -, -, -, -, -, -, -, -, -, -, -, e0, e1, -⟩ := idx_facts t
  refine ⟨t, flush0_8 t, ?_⟩
  rw [left_mem]
  intro a
  match a with
  | ⟨0, _⟩ =>
    show win0_8.index t (0 : Fin 2) * 64 ≤ (i 0).val ∧ (i 0).val < win0_8.index t (0 : Fin 2) * 64 + 64
    omega
  | ⟨1, _⟩ =>
    show win0_8.index t (1 : Fin 2) * 128 ≤ (i 1).val ∧ (i 1).val < win0_8.index t (1 : Fin 2) * 128 + 128
    omega

/-- What point t writes back to the right output is block t of the row-by-row array. -/
private theorem right_flushed (c : Dev nD) (t : Fin cfg0.N) :
    (dat0 (F := Ideal) V c).flushed 9 t = ((cfg0.win 9).blk t).view.read (Elt Ideal)
      (rowsK (V c main_arg0) (V c main_arg1) (V c main_arg2) (V c main_arg5) (V c main_arg6) (V c main_arg7)) := by
  show (cfg0.win 9).cut (grid0.coords t) ((dat0 V c).after 9 t) = _
  rw [after0_9]
  funext y
  obtain ⟨p, q, rfl⟩ : ∃ (p : Fin 64) (q : Fin 128), y = ix2 p q := ⟨y 0, y 1, eq_ix2 y⟩
  have ht := point_lt t
  have hr : (⟨64 * t.val + p.val, by omega⟩ : Fin 512).val = 64 * t.val + p.val := rfl
  refine (RowBody.out0_9_apply (iblk0 V c 0 t) (iblk0 V c 1 t) (iblk0 V c 2 t) (iblk0 V c 3 t) (iblk0 V c 4 t)
    (iblk0 V c 5 t) (iblk0 V c 6 t) (iblk0 V c 7 t) p q).trans ?_
  rw [View.read_apply, right_emb t p q ⟨64 * t.val + p.val, by omega⟩ hr]
  have h0 : (fun (m : Fin 256) (d : Fin 128) => (iblk0 (F := Ideal) V c 0 t : Vec Ideal S1x256x64x128 .f32) (ix4 (0 : Fin 1) m p d))
      = slab (V c main_arg0) ⟨64 * t.val + p.val, by omega⟩ :=
    funext fun m => funext fun d => slab_block V c t m p d ⟨64 * t.val + p.val, by omega⟩ hr
  have h1 : vec (iblk0 (F := Ideal) V c 1 t : Vec Ideal S128 .f32) = vec (V c main_arg1) :=
    funext fun d => gamma_block V c t d
  have h2 : vec (iblk0 (F := Ideal) V c 2 t : Vec Ideal S128 .f32) = vec (V c main_arg2) :=
    funext fun d => beta_block V c t d
  have h5 : mat (iblk0 (F := Ideal) V c 5 t : Vec Ideal S128x128 .f32) = mat (V c main_arg5) :=
    funext fun a => funext fun b => wr_block V c t a b
  have h6 : vec (iblk0 (F := Ideal) V c 6 t : Vec Ideal S128 .f32) = vec (V c main_arg6) :=
    funext fun d => br_block V c t d
  have h7 : mat (iblk0 (F := Ideal) V c 7 t : Vec Ideal S128x128 .f32) = mat (V c main_arg7) :=
    funext fun a => funext fun b => wo_block V c t a b
  rw [h0, h1, h2, h5, h6, h7]
  rfl

/-- An index of the right output is in point t's block iff each coordinate is in the block's range on its axis. -/
private theorem right_mem (t : Fin cfg0.N) (i : S512x128.Idx) :
    i ∈ ((cfg0.win 9).blk t).view.set ↔ ∀ a : Fin 2, win0_9.index t a * S64x128.size a ≤ (i a).val
      ∧ (i a).val < win0_9.index t a * S64x128.size a + S64x128.size a := by
  show i ∈ ((View.whole main_v0_1).slice (win0_9.rect t)).set ↔ _
  rw [View.set_slice_whole, Rect.mem_set_unit]
  exact Iff.rfl

/-- Row r of the right output is in the block of point r / 64, which writes back. -/
private theorem right_cover (i : S512x128.Idx) :
    ∃ t : Fin cfg0.N, (cfg0.win 9).flush t = true ∧ i ∈ ((cfg0.win 9).blk t).view.set := by
  have hi0 : (i 0).val < 512 := (i 0).isLt
  have hi1 : (i 1).val < 128 := (i 1).isLt
  have hN : cfg0.N = 8 := N_0
  obtain ⟨t, ht⟩ : ∃ t : Fin cfg0.N, t.val = (i 0).val / 64 := ⟨⟨(i 0).val / 64, by omega⟩, rfl⟩
  obtain ⟨-, -, -, -, -, -, -, -, -, -, -, -, -, -, -, -, e0, e1⟩ := idx_facts t
  refine ⟨t, flush0_9 t, ?_⟩
  rw [right_mem]
  intro a
  match a with
  | ⟨0, _⟩ =>
    show win0_9.index t (0 : Fin 2) * 64 ≤ (i 0).val ∧ (i 0).val < win0_9.index t (0 : Fin 2) * 64 + 64
    omega
  | ⟨1, _⟩ =>
    show win0_9.index t (1 : Fin 2) * 128 ≤ (i 1).val ∧ (i 1).val < win0_9.index t (1 : Fin 2) * 128 + 128
    omega

/-- The left projection's array after the region: row by row, `outK` through the left weights. -/
theorem left_array (c : Dev nD) :
    (dat0 (F := Ideal) V c).arrAt 8 cfg0.N
      = rowsK (V c main_arg0) (V c main_arg1) (V c main_arg2) (V c main_arg3) (V c main_arg4) (V c main_arg7) :=
  (dat0 (F := Ideal) V c).arrAt_eq_of_cover 8
    (rowsK (V c main_arg0) (V c main_arg1) (V c main_arg2) (V c main_arg3) (V c main_arg4) (V c main_arg7))
    (fun t _ => left_flushed V c t) left_cover

/-- The right projection's array after the region: row by row, `outK` through the right weights. -/
theorem right_array (c : Dev nD) :
    (dat0 (F := Ideal) V c).arrAt 9 cfg0.N
      = rowsK (V c main_arg0) (V c main_arg1) (V c main_arg2) (V c main_arg5) (V c main_arg6) (V c main_arg7) :=
  (dat0 (F := Ideal) V c).arrAt_eq_of_cover 9
    (rowsK (V c main_arg0) (V c main_arg1) (V c main_arg2) (V c main_arg5) (V c main_arg6) (V c main_arg7))
    (fun t _ => right_flushed V c t) right_cover

end Cert.KernelIdeal.RowArrays

end
-- ==== Proof.PairSum.lean ====
/-
  The second kernel: a 4 × 4 grid of points, point (a, b) loading rows 128·a … of the left array, rows 128·b … of the
  right array and the whole output bias, and storing the 128 × 128 × 128 block whose element (r, s, e) is
  left (r, e) + right (s, e) + bias e. The sixteen blocks tile the 512 × 512 × 128 output, so the output array is that
  sum at every index, whatever the contents `V` the region is entered with.
-/
import proofs.«159848_j1915555414566_1_alg».proof.Proof.RowSpec
import proofs.«159848_j1915555414566_1_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.PairSum

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## Layout operations of the body, read at an index -/

private theorem zero3 : (![0, 0, 0] : Fin 3 → Nat) = fun _ => 0 :=
  funext fun a => match a with | ⟨0, _⟩ => rfl | ⟨1, _⟩ => rfl | ⟨2, _⟩ => rfl
private theorem zero2 : (![0, 0] : Fin 2 → Nat) = fun _ => 0 :=
  funext fun a => match a with | ⟨0, _⟩ => rfl | ⟨1, _⟩ => rfl
private theorem zero1 : (![0] : Fin 1 → Nat) = fun _ => 0 :=
  funext fun a => match a with | ⟨0, _⟩ => rfl

section Layout
variable {α : Type}

/-- A 128 × 128 array cast to 128 × 1 × 128 reads, at (r, u, e), the operand at (r, e). -/
private theorem cast_mid_apply (x : S128x128.Idx → α) (h : S128x128.ShapeCasts S128x1x128) (r : Fin 128) (u : Fin 1) (e : Fin 128) :
    shapeCast S128x1x128 x h (ix3 r u e) = x (ix2 r e) :=
  shapeCast_apply x h _ _ (by
    have hu : u.val = 0 := by omega
    rw [Shape.rowMajor_val_three, Shape.rowMajor_val_two]
    show r.val * 128 + e.val = (r.val * 1 + u.val) * 128 + e.val
    rw [hu, Nat.mul_one, Nat.add_zero])

/-- A 128-vector cast to 1 × 1 × 128 reads, at (u, u', e), the operand at e. -/
private theorem cast_vec_apply (x : S128.Idx → α) (h : S128.ShapeCasts S1x1x128) (u u' : Fin 1) (e : Fin 128) :
    shapeCast S1x1x128 x h (ix3 u u' e) = x (ix1 e) :=
  shapeCast_apply x h _ _ (by
    have hu : u.val = 0 := by omega
    have hu' : u'.val = 0 := by omega
    rw [Shape.rowMajor_val_three, Shape.rowMajor_val_one]
    show e.val = (u.val * 1 + u'.val) * 128 + e.val
    omega)

/-- A 128 × 1 × 128 array broadcast along its middle axis reads, at (r, s, e), the operand at (r, 0, e). -/
private theorem bcast_mid_apply (v : S128x1x128.Idx → α) (h : S128x1x128.Broadcasts S128x128x128) (r s e : Fin 128) :
    broadcastTo S128x128x128 v h (ix3 r s e) = v (ix3 r (0 : Fin 1) e) := by
  refine broadcastTo_apply v h (ix3 r s e) (ix3 r (0 : Fin 1) e) fun ax => ?_
  match ax with
  | ⟨0, _⟩ => rfl
  | ⟨1, _⟩ => rfl
  | ⟨2, _⟩ => rfl

/-- A 1 × 128 × 128 array broadcast along its leading axis reads, at (r, s, e), the operand at (0, s, e). -/
private theorem bcast_lead_apply (v : S1x128x128.Idx → α) (h : S1x128x128.Broadcasts S128x128x128) (r s e : Fin 128) :
    broadcastTo S128x128x128 v h (ix3 r s e) = v (ix3 (0 : Fin 1) s e) := by
  refine broadcastTo_apply v h (ix3 r s e) (ix3 (0 : Fin 1) s e) fun ax => ?_
  match ax with
  | ⟨0, _⟩ => rfl
  | ⟨1, _⟩ => rfl
  | ⟨2, _⟩ => rfl

/-- A 1 × 1 × 128 array broadcast along its two leading axes reads, at (r, s, e), the operand at (0, 0, e). -/
private theorem bcast_vec_apply (v : S1x1x128.Idx → α) (h : S1x1x128.Broadcasts S128x128x128) (r s e : Fin 128) :
    broadcastTo S128x128x128 v h (ix3 r s e) = v (ix3 (0 : Fin 1) (0 : Fin 1) e) := by
  refine broadcastTo_apply v h (ix3 r s e) (ix3 (0 : Fin 1) (0 : Fin 1) e) fun ax => ?_
  match ax with
  | ⟨0, _⟩ => rfl
  | ⟨1, _⟩ => rfl
  | ⟨2, _⟩ => rfl

end Layout

/-- Element (r, s, e) of the block one point stores. -/
theorem out1_3_apply (x0 x1 : Vec Ideal S128x128 .f32) (x2 : Vec Ideal S128 .f32) (r s e : Fin 128) :
    out1_3 (F := Ideal) x0 x1 x2 (ix3 r s e) = x0 (ix2 r e) + x1 (ix2 s e) + x2 (ix1 e) := by
  unfold out1_3
  rw [View.canon_unit_zero zero3]
  simp only [View.ld_unit_zero (S := S128x128) zero2, View.ld_unit_zero (S := S128) zero1]
  unfold k1_pay1
  rw [addf_apply, addf_apply]
  refine congrArg₂ (· + ·) (congrArg₂ (· + ·) ?_ ?_) ?_
  · refine (bcast_mid_apply _ _ r s e).trans ?_
    rw [shapeCast_self, shapeCast_self]
    exact cast_mid_apply _ _ r 0 e
  · refine (bcast_lead_apply _ _ r s e).trans ?_
    rw [shapeCast_self, shapeCast_self]
    exact shapeCast_ab_1ab_apply _ _ 0 s e
  · refine (bcast_vec_apply _ _ r s e).trans ?_
    exact cast_vec_apply _ _ 0 0 e

variable (V : (c : Dev nD) → (b : Ref sig .tc) → Buf (Elt Ideal) ((c : Thread nD τ).loc b))

/-! ## From the sixteen blocks to the array -/

/-- The printed index maps over the grid: the left window follows the output's first block index, the right window
    its second, the bias window and every trailing block index stay at 0, and the output's block indices are at most 3. -/
private theorem idx_facts : ∀ t : Fin cfg1.N,
    win1_0.index t (0 : Fin 2) = win1_3.index t (0 : Fin 3)
    ∧ win1_0.index t (1 : Fin 2) = 0
    ∧ win1_1.index t (0 : Fin 2) = win1_3.index t (1 : Fin 3)
    ∧ win1_1.index t (1 : Fin 2) = 0
    ∧ win1_2.index t (0 : Fin 1) = 0
    ∧ win1_3.index t (2 : Fin 3) = 0
    ∧ win1_3.index t (0 : Fin 3) ≤ 3
    ∧ win1_3.index t (1 : Fin 3) ≤ 3 :=
  (by decide +kernel : ∀ t : Fin grid1.N, _)

/-- Every pair of block indices of the output is some point's. -/
private theorem idx_onto : ∀ (q0 q1 : Fin 4), ∃ t : Fin cfg1.N, win1_3.index t = ![q0.val, q1.val, 0] :=
  (by decide +kernel : ∀ (q0 q1 : Fin 4), ∃ t : Fin grid1.N, win1_3.index t = ![q0.val, q1.val, 0])

/-- The left window's block at point `t`, element (r, e): the left array at row 128 · (block index) + r. -/
private theorem left_block_apply (c : Dev nD) (t : Fin cfg1.N) (r e : Fin 128) (k : S512x128.Idx)
    (hk0 : (k 0).val = win1_0.index t (0 : Fin 2) * 128 + r.val) (hk1 : (k 1).val = win1_0.index t (1 : Fin 2) * 128 + e.val) :
    (iblk1 (F := Ideal) V c 0 t : Vec Ideal S128x128 .f32) (ix2 r e) = (V c main_v0_0 : S512x128.Idx → Elt Ideal .f32) k := by
  unfold iblk1
  rw [View.read_apply]
  show V c main_v0_0 _ = V c main_v0_0 _
  congr 1
  funext a
  apply Fin.ext
  match a with
  | ⟨0, _⟩ => show win1_0.index t (0 : Fin 2) * 128 + 1 * r.val = (k 0).val; omega
  | ⟨1, _⟩ => show win1_0.index t (1 : Fin 2) * 128 + 1 * e.val = (k 1).val; omega

/-- The right window's block at point `t`, element (s, e): the right array at row 128 · (block index) + s. -/
private theorem right_block_apply (c : Dev nD) (t : Fin cfg1.N) (s e : Fin 128) (k : S512x128.Idx)
    (hk0 : (k 0).val = win1_1.index t (0 : Fin 2) * 128 + s.val) (hk1 : (k 1).val = win1_1.index t (1 : Fin 2) * 128 + e.val) :
    (iblk1 (F := Ideal) V c 1 t : Vec Ideal S128x128 .f32) (ix2 s e) = (V c main_v0_1 : S512x128.Idx → Elt Ideal .f32) k := by
  unfold iblk1
  rw [View.read_apply]
  show V c main_v0_1 _ = V c main_v0_1 _
  congr 1
  funext a
  apply Fin.ext
  match a with
  | ⟨0, _⟩ => show win1_1.index t (0 : Fin 2) * 128 + 1 * s.val = (k 0).val; omega
  | ⟨1, _⟩ => show win1_1.index t (1 : Fin 2) * 128 + 1 * e.val = (k 1).val; omega

/-- The bias window's block at point `t`, element e: the bias at 128 · (block index) + e. -/
private theorem bias_block_apply (c : Dev nD) (t : Fin cfg1.N) (e : Fin 128) (k : S128.Idx)
    (hk0 : (k 0).val = win1_2.index t (0 : Fin 1) * 128 + e.val) :
    (iblk1 (F := Ideal) V c 2 t : Vec Ideal S128 .f32) (ix1 e) = (V c main_arg8 : S128.Idx → Elt Ideal .f32) k := by
  unfold iblk1
  rw [View.read_apply]
  show V c main_arg8 _ = V c main_arg8 _
  congr 1
  funext a
  apply Fin.ext
  match a with
  | ⟨0, _⟩ => show win1_2.index t (0 : Fin 1) * 128 + 1 * e.val = (k 0).val; omega

/-- What point `t` writes back is its block of the pair sum of the arrays the region is entered with. -/
private theorem flushed_eq (c : Dev nD) (t : Fin cfg1.N) :
    (dat1 (F := Ideal) V c).flushed 3 t
      = ((cfg1.win 3).blk t).view.read (Elt Ideal) (Cert.RowSpec.pairSum (V c main_v0_0) (V c main_v0_1) (V c main_arg8)) := by
  show (cfg1.win 3).cut (grid1.coords t) ((dat1 V c).after 3 t) = _
  rw [after1_3]
  obtain ⟨e00, e01, e10, e11, e2, e32, b0, b1⟩ := idx_facts t
  funext y
  obtain ⟨r, s, e, rfl⟩ : ∃ (r s e : Fin 128), y = ix3 r s e := ⟨y 0, y 1, y 2, eq_ix3 y⟩
  show out1_3 (iblk1 V c 0 t) (iblk1 V c 1 t) (iblk1 V c 2 t) (ix3 r s e)
    = Cert.RowSpec.pairSum (V c main_v0_0) (V c main_v0_1) (V c main_arg8) (((cfg1.win 3).blk t).view.emb (ix3 r s e))
  refine (out1_3_apply (iblk1 V c 0 t) (iblk1 V c 1 t) (iblk1 V c 2 t) r s e).trans ?_
  unfold Cert.RowSpec.pairSum
  refine congrArg₂ (· + ·) (congrArg₂ (· + ·) ?_ ?_) ?_
  · refine left_block_apply V c t r e _ ?_ ?_
    · show win1_3.index t (0 : Fin 3) * 128 + 1 * r.val = win1_0.index t (0 : Fin 2) * 128 + r.val; omega
    · show win1_3.index t (2 : Fin 3) * 128 + 1 * e.val = win1_0.index t (1 : Fin 2) * 128 + e.val; omega
  · refine right_block_apply V c t s e _ ?_ ?_
    · show win1_3.index t (1 : Fin 3) * 128 + 1 * s.val = win1_1.index t (0 : Fin 2) * 128 + s.val; omega
    · show win1_3.index t (2 : Fin 3) * 128 + 1 * e.val = win1_1.index t (1 : Fin 2) * 128 + e.val; omega
  · refine bias_block_apply V c t e _ ?_
    show win1_3.index t (2 : Fin 3) * 128 + 1 * e.val = win1_2.index t (0 : Fin 1) * 128 + e.val; omega

/-- An index of the output array is in point `t`'s block iff each coordinate is in the block's range on its axis. -/
private theorem mem_blk (t : Fin cfg1.N) (i : S512x512x128.Idx) :
    i ∈ ((cfg1.win 3).blk t).view.set ↔ ∀ a : Fin 3, win1_3.index t a * S128x128x128.size a ≤ (i a).val ∧ (i a).val < win1_3.index t a * S128x128x128.size a + S128x128x128.size a := by
  show i ∈ ((View.whole main_v1).slice (win1_3.rect t)).set ↔ _
  rw [View.set_slice_whole, Rect.mem_set_unit]
  exact Iff.rfl

/-- Every index of the output array is in some point's block: (i, j, e) in that of the point with block indices
    (i / 128, j / 128). -/
private theorem cover (i : S512x512x128.Idx) :
    ∃ t : Fin cfg1.N, (cfg1.win 3).flush t = true ∧ i ∈ ((cfg1.win 3).blk t).view.set := by
  have hi0 : (i 0).val < 512 := (i 0).isLt
  have hi1 : (i 1).val < 512 := (i 1).isLt
  have hi2 : (i 2).val < 128 := (i 2).isLt
  obtain ⟨t, ht⟩ := idx_onto ⟨(i 0).val / 128, by omega⟩ ⟨(i 1).val / 128, by omega⟩
  have q0 : win1_3.index t (0 : Fin 3) = (i 0).val / 128 := congrFun ht 0
  have q1 : win1_3.index t (1 : Fin 3) = (i 1).val / 128 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 128 ≤ (i 0).val ∧ (i 0).val < win1_3.index t (0 : Fin 3) * 128 + 128; omega
  | ⟨1, _⟩ => show win1_3.index t (1 : Fin 3) * 128 ≤ (i 1).val ∧ (i 1).val < win1_3.index t (1 : Fin 3) * 128 + 128; omega
  | ⟨2, _⟩ => show win1_3.index t (2 : Fin 3) * 128 ≤ (i 2).val ∧ (i 2).val < win1_3.index t (2 : Fin 3) * 128 + 128; omega

/-- The output array after the region. -/
theorem sum_array (c : Dev nD) :
    (dat1 (F := Ideal) V c).arrAt 3 cfg1.N
      = Cert.RowSpec.pairSum (V c main_v0_0) (V c main_v0_1) (V c main_arg8) :=
  (dat1 (F := Ideal) V c).arrAt_eq_of_cover 3 (Cert.RowSpec.pairSum (V c main_v0_0) (V c main_v0_1) (V c main_arg8))
    (fun t _ => flushed_eq V c t) cover

end Cert.KernelIdeal.PairSum

end
-- ==== Proof.KernelValue.lean ====
/-
  The idealized kernel's result array as one function of the nine argument arrays.

  After the first region the two projection arrays hold, row by row, the row function `outK` of the input's rows
  (through the left and through the right weights); the second region reads them as it finds them, so its output array
  is their pairwise sum plus the output bias; the reshape after it only adds a leading unit axis. Reading the reshape
  at (0, i, j, e) gives the sum at (i, j, e): `resultK`.
-/
import proofs.«159848_j1915555414566_1_alg».proof.Proof.KernelRun
import proofs.«159848_j1915555414566_1_alg».proof.Proof.RowArrays
import proofs.«159848_j1915555414566_1_alg».proof.Proof.PairSum
import Idealize.ShloMosaic.Lib.StableHlo.Run

set_option maxRecDepth 16384

noncomputable section

namespace Cert.KernelIdeal.Result

open Cert.KernelIdeal Cert.KernelIdeal.Gen Cert.RowSpec Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The last boundary's contents at the result: the reshape of what the second region leaves in its output array. -/
theorem tail_eq (c : Dev nD) :
    W3 m ρ c (Proc.devRef .tc main_v2)
      = shapeCast S1x512x512x128 (W2 m ρ c (Proc.devRef .tc main_v1)) shapeCasts_S512x512x128_S1x512x512x128 := by
  show StableHlo.after hostOps2 (W2 m ρ c) (Proc.devRef .tc main_v2) = _
  after_results
  rfl

/-- The left projection array as the second region finds it. -/
theorem left_entry (c : Dev nD) :
    V1 m ρ c main_v0_0
      = rowsK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg7)) :=
  (W1_arr m ρ c 8).trans (RowArrays.left_array (V0 m ρ) c)

/-- The right projection array as the second region finds it. -/
theorem right_entry (c : Dev nD) :
    V1 m ρ c main_v0_1
      = rowsK (m ((c : Thread nD τ).loc main_arg0)) (m ((c : Thread nD τ).loc main_arg1)) (m ((c : Thread nD τ).loc main_arg2))
          (m ((c : Thread nD τ).loc main_arg5)) (m ((c : Thread nD τ).loc main_arg6)) (m ((c : Thread nD τ).loc main_arg7)) :=
  (W1_arr m ρ c 9).trans (RowArrays.right_array (V0 m ρ) c)

/-- The output bias as the second region finds it: the first region does not touch it. -/
theorem bias_entry (c : Dev nD) : V1 m ρ c main_arg8 = m ((c : Thread nD τ).loc main_arg8) :=
  W1_of_ne m ρ c main_arg8 (by decide)

/-- The second region's output array after it. -/
theorem out_array (c : Dev nD) :
    W2 m ρ c (Proc.devRef .tc main_v1)
      = pairSum
          (rowsK (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg7)))
          (rowsK (m ((c : Thread nD τ).loc main_arg0)) (m ((c : Thread nD τ).loc main_arg1)) (m ((c : Thread nD τ).loc main_arg2))
            (m ((c : Thread nD τ).loc main_arg5)) (m ((c : Thread nD τ).loc main_arg6)) (m ((c : Thread nD τ).loc main_arg7)))
          (m ((c : Thread nD τ).loc main_arg8)) := by
  refine (W2_arr m ρ c 3).trans ((PairSum.sum_array (V1 m ρ) c).trans ?_)
  rw [left_entry m ρ c, right_entry m ρ c, bias_entry m ρ c]

/-- The result array is `resultK` of the nine argument arrays. -/
theorem result_eq (c : Dev nD) :
    W3 m ρ c (Proc.devRef .tc main_v2)
      = resultK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [tail_eq m ρ c, out_array m ρ c]
  funext j
  refine (shapeCast_addUnit_apply ![512, 512, 128] _ _ j).trans ?_
  rfl

end Cert.KernelIdeal.Result

end
-- ==== Proof.RefRow.lean ====
/-
  The reference program read at one element. Its last operation's value at (0, i, j, e) is: every sample of row i
  layer-normalised, projected through the left weights plus the left bias, averaged over the samples; the same for
  row j through the right weights; the two hidden rows added, projected through the output weights, plus the output
  bias — `resultR`. Each operation is read at an index by its generated lemma; the host's sums start from the zero word.
-/
import proofs.«159848_j1915555414566_1_alg».proof.Proof.RowSpec
import proofs.«159848_j1915555414566_1_alg».proof.Proof.Gen.ReferenceIdeal.Read

noncomputable section

open scoped BigOperators

namespace Cert.ReferenceIdeal.RefRow

open Cert.ReferenceIdeal Cert.ReferenceIdeal.Gen Cert.ReferenceIdeal.Read Cert.RowSpec Idealize.ShloMosaic Idealize.ShloMosaic.ValueIdx

/-! ## Layer-normalisation: operations %0 – %23 -/

/-- The feature sum of sample `m` of row `i`. -/
private theorem v0_at (x0 : (⟨S1x256x512x128, .f32⟩ : BufTy).Contents (Elt Ideal)) (m : Fin 256) (i : Fin 512) :
    val_main_v0 (F := Ideal) x0 (ix3 (0 : Fin 1) m i) = ∑ d : Fin 128, slab x0 i m d := by
  rw [val_main_v0_apply, val_main_cst_apply, Ideal.ofBits_def, Ideal.ofBits_zero_f32, zero_add]
  refine Finset.sum_congr rfl fun k _ => ?_
  exact congrArg x0 (funext fun a => Fin.ext (by match a with | ⟨0, _⟩ => rfl | ⟨1, _⟩ => rfl | ⟨2, _⟩ => rfl | ⟨3, _⟩ => rfl))

/-- The mean of sample `m` of row `i`. -/
private theorem v3_at (x0 : (⟨S1x256x512x128, .f32⟩ : BufTy).Contents (Elt Ideal)) (m : Fin 256) (i : Fin 512) :
    val_main_v3 (F := Ideal) x0 (ix4 (0 : Fin 1) m i (0 : Fin 1)) = mu (slab x0 i) m := by
  have h1 : idx_main_v1 (ix4 (0 : Fin 1) m i (0 : Fin 1)) = ix3 (0 : Fin 1) m i :=
    funext fun a => Fin.ext (by match a with | ⟨0, _⟩ => rfl | ⟨1, _⟩ => rfl | ⟨2, _⟩ => rfl)
  rw [val_main_v3_apply, val_main_v1_apply, val_main_v2_apply, val_main_cst_0_apply, Ideal.hostDivf_def,
    Ideal.ofBits_def, h1, v0_at]
  rfl

/-- The mean broadcast along the features (the program does it twice). -/
private theorem v4_at (x0 : (⟨S1x256x512x128, .f32⟩ : BufTy).Contents (Elt Ideal)) (m : Fin 256) (i : Fin 512) (d : Fin 128) :
    val_main_v4 (F := Ideal) x0 (ix4 (0 : Fin 1) m i d) = mu (slab x0 i) m := by
  have h1 : idx_main_v4 (ix4 (0 : Fin 1) m i d) = ix4 (0 : Fin 1) m i (0 : Fin 1) :=
    funext fun a => Fin.ext (by match a with | ⟨0, _⟩ => rfl | ⟨1, _⟩ => rfl | ⟨2, _⟩ => rfl | ⟨3, _⟩ => rfl)
  rw [val_main_v4_apply, h1, v3_at]

private theorem v11_at (x0 : (⟨S1x256x512x128, .f32⟩ : BufTy).Contents (Elt Ideal)) (m : Fin 256) (i : Fin 512) (d : Fin 128) :
    val_main_v11 (F := Ideal) x0 (ix4 (0 : Fin 1) m i d) = mu (slab x0 i) m := by
  have h1 : idx_main_v11 (ix4 (0 : Fin 1) m i d) = ix4 (0 : Fin 1) m i (0 : Fin 1) :=
    funext fun a => Fin.ext (by match a with | ⟨0, _⟩ => rfl | ⟨1, _⟩ => rfl | ⟨2, _⟩ => rfl | ⟨3, _⟩ => rfl)
  rw [val_main_v11_apply, h1, v3_at]

/-- The centred feature. -/
private theorem v5_at (x0 : (⟨S1x256x512x128, .f32⟩ : BufTy).Contents (Elt Ideal)) (m : Fin 256) (i : Fin 512) (d : Fin 128) :
    val_main_v5 (F := Ideal) x0 (ix4 (0 : Fin 1) m i d) = xc (slab x0 i) m d := by
  rw [val_main_v5_apply, v4_at, Ideal.subf_def]
  rfl

private theorem v12_at (x0 : (⟨S1x256x512x128, .f32⟩ : BufTy).Contents (Elt Ideal)) (m : Fin 256) (i : Fin 512) (d : Fin 128) :
    val_main_v12 (F := Ideal) x0 (ix4 (0 : Fin 1) m i d) = xc (slab x0 i) m d := by
  rw [val_main_v12_apply, v11_at, Ideal.subf_def]
  rfl

/-- The sum of the squared centred features. -/
private theorem v7_at (x0 : (⟨S1x256x512x128, .f32⟩ : BufTy).Contents (Elt Ideal)) (m : Fin 256) (i : Fin 512) :
    val_main_v7 (F := Ideal) x0 (ix3 (0 : Fin 1) m i) = ∑ d : Fin 128, xc (slab x0 i) m d * xc (slab x0 i) m d := by
  rw [val_main_v7_apply, val_main_cst_1_apply, Ideal.ofBits_def, Ideal.ofBits_zero_f32, zero_add]
  refine Finset.sum_congr rfl fun k _ => ?_
  have h1 : idx_main_v7 (ix3 (0 : Fin 1) m i) k = ix4 (0 : Fin 1) m i k :=
    funext fun a => Fin.ext (by match a with | ⟨0, _⟩ => rfl | ⟨1, _⟩ => rfl | ⟨2, _⟩ => rfl | ⟨3, _⟩ => rfl)
  rw [h1, val_main_v6_apply, v5_at, Ideal.mulf_def]

/-- The variance of sample `m` of row `i`. -/
private theorem v10_at (x0 : (⟨S1x256x512x128, .f32⟩ : BufTy).Contents (Elt Ideal)) (m : Fin 256) (i : Fin 512) :
    val_main_v10 (F := Ideal) x0 (ix4 (0 : Fin 1) m i (0 : Fin 1)) = var (slab x0 i) m := by
  have h1 : idx_main_v8 (ix4 (0 : Fin 1) m i (0 : Fin 1)) = ix3 (0 : Fin 1) m i :=
    funext fun a => Fin.ext (by match a with | ⟨0, _⟩ => rfl | ⟨1, _⟩ => rfl | ⟨2, _⟩ => rfl)
  rw [val_main_v10_apply, val_main_v8_apply, val_main_v9_apply, val_main_cst_2_apply, Ideal.hostDivf_def,
    Ideal.ofBits_def, h1, v7_at]
  rfl

/-- The reciprocal standard deviation, broadcast along the features. -/
private theorem v16_at (x0 : (⟨S1x256x512x128, .f32⟩ : BufTy).Contents (Elt Ideal)) (m : Fin 256) (i : Fin 512) (d : Fin 128) :
    val_main_v16 (F := Ideal) x0 (ix4 (0 : Fin 1) m i d) = Ideal.rsqrt (var (slab x0 i) m + ceps) := by
  have h1 : idx_main_v16 (ix4 (0 : Fin 1) m i d) = ix4 (0 : Fin 1) m i (0 : Fin 1) :=
    funext fun a => Fin.ext (by match a with | ⟨0, _⟩ => rfl | ⟨1, _⟩ => rfl | ⟨2, _⟩ => rfl | ⟨3, _⟩ => rfl)
  rw [val_main_v16_apply, h1, val_main_v15_apply, val_main_v14_apply, v10_at, val_main_v13_apply,
    val_main_cst_3_apply, Ideal.hostUnary_rsqrt_def, Ideal.addf_def, Ideal.ofBits_def]

/-- A length-128 vector broadcast over samples and rows reads its feature. -/
private theorem v19_at (x1 : (⟨S128, .f32⟩ : BufTy).Contents (Elt Ideal)) (m : Fin 256) (i : Fin 512) (d : Fin 128) :
    val_main_v19 (F := Ideal) x1 (ix4 (0 : Fin 1) m i d) = vec x1 d := by
  rw [val_main_v19_apply, val_main_v18_apply]
  exact congrArg x1 (funext fun a => Fin.ext (by match a with | ⟨0, _⟩ => rfl))

private theorem v22_at (x2 : (⟨S128, .f32⟩ : BufTy).Contents (Elt Ideal)) (m : Fin 256) (i : Fin 512) (d : Fin 128) :
    val_main_v22 (F := Ideal) x2 (ix4 (0 : Fin 1) m i d) = vec x2 d := by
  rw [val_main_v22_apply, val_main_v21_apply]
  exact congrArg x2 (funext fun a => Fin.ext (by match a with | ⟨0, _⟩ => rfl))

/-- Operation %23 is the layer-normalised sample. -/
private theorem v23_at (x0 : (⟨S1x256x512x128, .f32⟩ : BufTy).Contents (Elt Ideal)) (x1 x2 : (⟨S128, .f32⟩ : BufTy).Contents (Elt Ideal))
    (m : Fin 256) (i : Fin 512) (d : Fin 128) :
    val_main_v23 (F := Ideal) x0 x1 x2 (ix4 (0 : Fin 1) m i d) = xn (slab x0 i) (vec x1) (vec x2) m d := by
  rw [val_main_v23_apply, val_main_v20_apply, val_main_v17_apply, v12_at, v16_at, v19_at, v22_at,
    Ideal.addf_def, Ideal.mulf_def, Ideal.mulf_def]
  rfl

/-! ## The two hidden rows: operations %24 – %37 -/

/-- The normalised sample through the left weights. -/
private theorem v24_at (x0 : (⟨S1x256x512x128, .f32⟩ : BufTy).Contents (Elt Ideal)) (x1 x2 : (⟨S128, .f32⟩ : BufTy).Contents (Elt Ideal)) (x3 : (⟨S128x128, .f32⟩ : BufTy).Contents (Elt Ideal))
    (m : Fin 256) (i : Fin 512) (h : Fin 128) :
    val_main_v24 (F := Ideal) x0 x1 x2 x3 (ix4 (0 : Fin 1) m i h)
      = ∑ d : Fin 128, xn (slab x0 i) (vec x1) (vec x2) m d * mat x3 d h := by
  rw [val_main_v24_apply]
  refine Finset.sum_congr rfl fun k _ => ?_
  have h1 : lidx_main_v24 (ix4 (0 : Fin 1) m i h) k = ix4 (0 : Fin 1) m i k :=
    funext fun a => Fin.ext (by match a with | ⟨0, _⟩ => rfl | ⟨1, _⟩ => rfl | ⟨2, _⟩ => rfl | ⟨3, _⟩ => rfl)
  have h2 : ridx_main_v24 (ix4 (0 : Fin 1) m i h) k = ix2 k h :=
    funext fun a => Fin.ext (by match a with | ⟨0, _⟩ => rfl | ⟨1, _⟩ => rfl)
  rw [h1, h2, v23_at]

/-- The left bias broadcast over samples and rows. -/
private theorem v26_at (x4 : (⟨S128, .f32⟩ : BufTy).Contents (Elt Ideal)) (m : Fin 256) (i : Fin 512) (h : Fin 128) :
    val_main_v26 (F := Ideal) x4 (ix4 (0 : Fin 1) m i h) = vec x4 h := by
  rw [val_main_v26_apply, val_main_v25_apply]
  exact congrArg x4 (funext fun a => Fin.ext (by match a with | ⟨0, _⟩ => rfl))

/-- The left hidden row: every sample projected and shifted, averaged over the samples. -/
private theorem v34_at (x0 : (⟨S1x256x512x128, .f32⟩ : BufTy).Contents (Elt Ideal)) (x1 x2 : (⟨S128, .f32⟩ : BufTy).Contents (Elt Ideal)) (x3 : (⟨S128x128, .f32⟩ : BufTy).Contents (Elt Ideal)) (x4 : (⟨S128, .f32⟩ : BufTy).Contents (Elt Ideal))
    (i : Fin 512) (h : Fin 128) :
    val_main_v34 (F := Ideal) x0 x1 x2 x3 x4 (ix3 (0 : Fin 1) i h)
      = hidR (slab x0 i) (vec x1) (vec x2) (mat x3) (vec x4) h := by
  rw [val_main_v34_apply, val_main_v32_apply, val_main_v33_apply, val_main_cst_4_apply, val_main_cst_5_apply,
    Ideal.hostDivf_def, Ideal.ofBits_def, Ideal.ofBits_def, Ideal.ofBits_zero_f32, zero_add]
  unfold hidR
  refine congrArg (fun s => Ideal.div s c256) (Finset.sum_congr rfl fun k _ => ?_)
  have h1 : idx_main_v32 (ix3 (0 : Fin 1) i h) k = ix4 (0 : Fin 1) k i h :=
    funext fun a => Fin.ext (by match a with | ⟨0, _⟩ => rfl | ⟨1, _⟩ => rfl | ⟨2, _⟩ => rfl | ⟨3, _⟩ => rfl)
  rw [h1, val_main_v27_apply, v24_at, v26_at, Ideal.addf_def]

/-- The normalised sample through the right weights. -/
private theorem v28_at (x0 : (⟨S1x256x512x128, .f32⟩ : BufTy).Contents (Elt Ideal)) (x1 x2 : (⟨S128, .f32⟩ : BufTy).Contents (Elt Ideal)) (x5 : (⟨S128x128, .f32⟩ : BufTy).Contents (Elt Ideal))
    (m : Fin 256) (i : Fin 512) (h : Fin 128) :
    val_main_v28 (F := Ideal) x0 x1 x2 x5 (ix4 (0 : Fin 1) m i h)
      = ∑ d : Fin 128, xn (slab x0 i) (vec x1) (vec x2) m d * mat x5 d h := by
  rw [val_main_v28_apply]
  refine Finset.sum_congr rfl fun k _ => ?_
  have h1 : lidx_main_v28 (ix4 (0 : Fin 1) m i h) k = ix4 (0 : Fin 1) m i k :=
    funext fun a => Fin.ext (by match a with | ⟨0, _⟩ => rfl | ⟨1, _⟩ => rfl | ⟨2, _⟩ => rfl | ⟨3, _⟩ => rfl)
  have h2 : ridx_main_v28 (ix4 (0 : Fin 1) m i h) k = ix2 k h :=
    funext fun a => Fin.ext (by match a with | ⟨0, _⟩ => rfl | ⟨1, _⟩ => rfl)
  rw [h1, h2, v23_at]

/-- The right bias broadcast over samples and rows. -/
private theorem v30_at (x6 : (⟨S128, .f32⟩ : BufTy).Contents (Elt Ideal)) (m : Fin 256) (i : Fin 512) (h : Fin 128) :
    val_main_v30 (F := Ideal) x6 (ix4 (0 : Fin 1) m i h) = vec x6 h := by
  rw [val_main_v30_apply, val_main_v29_apply]
  exact congrArg x6 (funext fun a => Fin.ext (by match a with | ⟨0, _⟩ => rfl))

/-- The right hidden row: every sample projected and shifted, averaged over the samples. -/
private theorem v37_at (x0 : (⟨S1x256x512x128, .f32⟩ : BufTy).Contents (Elt Ideal)) (x1 x2 : (⟨S128, .f32⟩ : BufTy).Contents (Elt Ideal)) (x5 : (⟨S128x128, .f32⟩ : BufTy).Contents (Elt Ideal)) (x6 : (⟨S128, .f32⟩ : BufTy).Contents (Elt Ideal))
    (i : Fin 512) (h : Fin 128) :
    val_main_v37 (F := Ideal) x0 x1 x2 x5 x6 (ix3 (0 : Fin 1) i h)
      = hidR (slab x0 i) (vec x1) (vec x2) (mat x5) (vec x6) h := by
  rw [val_main_v37_apply, val_main_v35_apply, val_main_v36_apply, val_main_cst_6_apply, val_main_cst_7_apply,
    Ideal.hostDivf_def, Ideal.ofBits_def, Ideal.ofBits_def, Ideal.ofBits_zero_f32, zero_add]
  unfold hidR
  refine congrArg (fun s => Ideal.div s c256) (Finset.sum_congr rfl fun k _ => ?_)
  have h1 : idx_main_v35 (ix3 (0 : Fin 1) i h) k = ix4 (0 : Fin 1) k i h :=
    funext fun a => Fin.ext (by match a with | ⟨0, _⟩ => rfl | ⟨1, _⟩ => rfl | ⟨2, _⟩ => rfl | ⟨3, _⟩ => rfl)
  rw [h1, val_main_v31_apply, v28_at, v30_at, Ideal.addf_def]

/-! ## The pair sum and the output projection: operations %38 – %46 -/

/-- The left hidden row broadcast over the second row axis. -/
private theorem v40_at (x0 : (⟨S1x256x512x128, .f32⟩ : BufTy).Contents (Elt Ideal)) (x1 x2 : (⟨S128, .f32⟩ : BufTy).Contents (Elt Ideal)) (x3 : (⟨S128x128, .f32⟩ : BufTy).Contents (Elt Ideal)) (x4 : (⟨S128, .f32⟩ : BufTy).Contents (Elt Ideal))
    (i j : Fin 512) (h : Fin 128) :
    val_main_v40 (F := Ideal) x0 x1 x2 x3 x4 (ix4 (0 : Fin 1) i j h)
      = hidR (slab x0 i) (vec x1) (vec x2) (mat x3) (vec x4) h := by
  have h1 : idx_main_v38 (idx_main_v40 (ix4 (0 : Fin 1) i j h)) = ix3 (0 : Fin 1) i h :=
    funext fun a => Fin.ext (by match a with | ⟨0, _⟩ => rfl | ⟨1, _⟩ => rfl | ⟨2, _⟩ => rfl)
  rw [val_main_v40_apply, val_main_v38_apply, h1, v34_at]

/-- The right hidden row broadcast over the first row axis. -/
private theorem v41_at (x0 : (⟨S1x256x512x128, .f32⟩ : BufTy).Contents (Elt Ideal)) (x1 x2 : (⟨S128, .f32⟩ : BufTy).Contents (Elt Ideal)) (x5 : (⟨S128x128, .f32⟩ : BufTy).Contents (Elt Ideal)) (x6 : (⟨S128, .f32⟩ : BufTy).Contents (Elt Ideal))
    (i j : Fin 512) (h : Fin 128) :
    val_main_v41 (F := Ideal) x0 x1 x2 x5 x6 (ix4 (0 : Fin 1) i j h)
      = hidR (slab x0 j) (vec x1) (vec x2) (mat x5) (vec x6) h := by
  have h1 : idx_main_v39 (idx_main_v41 (ix4 (0 : Fin 1) i j h)) = ix3 (0 : Fin 1) j h :=
    funext fun a => Fin.ext (by match a with | ⟨0, _⟩ => rfl | ⟨1, _⟩ => rfl | ⟨2, _⟩ => rfl)
  rw [val_main_v41_apply, val_main_v39_apply, h1, v37_at]

/-- The output bias broadcast over both row axes. -/
private theorem v45_at (x8 : (⟨S128, .f32⟩ : BufTy).Contents (Elt Ideal)) (i j : Fin 512) (e : Fin 128) :
    val_main_v45 (F := Ideal) x8 (ix4 (0 : Fin 1) i j e) = vec x8 e := by
  rw [val_main_v45_apply, val_main_v44_apply]
  exact congrArg x8 (funext fun a => Fin.ext (by match a with | ⟨0, _⟩ => rfl))

/-- The last operation at (0, i, j, e). -/
private theorem v46_at (x0 : (⟨S1x256x512x128, .f32⟩ : BufTy).Contents (Elt Ideal)) (x1 x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
    (i j : Fin 512) (e : Fin 128) :
    val_main_v46 (F := Ideal) x0 x1 x2 x3 x4 x5 x6 x7 x8 (ix4 (0 : Fin 1) i j e)
      = (∑ h : Fin 128, (hidR (slab x0 i) (vec x1) (vec x2) (mat x3) (vec x4) h
          + hidR (slab x0 j) (vec x1) (vec x2) (mat x5) (vec x6) h) * mat x7 h e) + vec x8 e := by
  rw [val_main_v46_apply, val_main_v43_apply, v45_at, Ideal.addf_def]
  refine congrArg (· + vec x8 e) (Finset.sum_congr rfl fun k _ => ?_)
  have h1 : lidx_main_v43 (ix4 (0 : Fin 1) i j e) k = ix4 (0 : Fin 1) i j k :=
    funext fun a => Fin.ext (by match a with | ⟨0, _⟩ => rfl | ⟨1, _⟩ => rfl | ⟨2, _⟩ => rfl | ⟨3, _⟩ => rfl)
  have h2 : ridx_main_v43 (ix4 (0 : Fin 1) i j e) k = ix2 k e :=
    funext fun a => Fin.ext (by match a with | ⟨0, _⟩ => rfl | ⟨1, _⟩ => rfl)
  rw [h1, h2, val_main_v42_apply, v40_at, v41_at, Ideal.addf_def]

/-- The reference's last stage is `resultR` of the nine argument arrays. -/
theorem val_eq_resultR (x0 : (⟨S1x256x512x128, .f32⟩ : BufTy).Contents (Elt Ideal)) (x1 x2 : (⟨S128, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) :
    val_main_v46 (F := Ideal) x0 x1 x2 x3 x4 x5 x6 x7 x8 = resultR x0 x1 x2 x3 x4 x5 x6 x7 x8 := by
  funext j
  obtain ⟨z, i, j', e, rfl⟩ : ∃ (z : Fin 1) (i j' : Fin 512) (e : Fin 128), j = ix4 z i j' e :=
    ⟨j 0, j 1, j 2, j 3, eq_ix4 j⟩
  obtain rfl : z = 0 := Subsingleton.elim _ _
  rw [v46_at]
  rfl

end Cert.ReferenceIdeal.RefRow

end
-- ==== Proof.RowLaw.lean ====
/-
  Why the two row functions agree. With every input a real number the normalised sample `xn` is a real number (the
  variance is a mean of squares, so `var + ε` is positive and its reciprocal square root is real), and on real numbers
  the average over the samples commutes with a projection: the mean over m of (Σ_d xn m d · w d h + bias h) is
  Σ_d (mean over m of xn m d) · w d h + bias h, because the sample count the programs divide by is 256. The output
  projection distributes over the sum of the two hidden rows.
-/
import proofs.«159848_j1915555414566_1_alg».proof.Proof.RowSpec
import Idealize.ShloMosaic.PureOps.Ideal.Laws

noncomputable section

open scoped BigOperators

namespace Cert.RowSpec

open Idealize.ShloMosaic Idealize.ShloMosaic.ValueIdx

/-! ## The three constants as real numbers -/

private theorem c128_eq : c128 = ((128 : ℝ) : EReal) := by
  show Ideal.ofBits .f32 0x43000000#32 = ((128 : ℝ) : EReal)
  simp [Ideal.ofBits, Ideal.ieee, -EReal.coe_mul]; norm_num

private theorem c256_eq : c256 = ((256 : ℝ) : EReal) := by
  show Ideal.ofBits .f32 0x43800000#32 = ((256 : ℝ) : EReal)
  simp [Ideal.ofBits, Ideal.ieee, -EReal.coe_mul]; norm_num

private theorem ceps_eq : ∃ ε : ℝ, 0 < ε ∧ ceps = ((ε : ℝ) : EReal) := by
  show ∃ ε : ℝ, 0 < ε ∧ Ideal.ofBits .f32 0x3727C5AC#32 = ((ε : ℝ) : EReal)
  simp [Ideal.ofBits, Ideal.ieee, -EReal.coe_mul]

/-! ## Coercion through finite sums and the two divisions -/

private theorem coe_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

private theorem div_c128 (s : ℝ) : Ideal.div ((s : ℝ) : EReal) c128 = ((s * (1 / 128) : ℝ) : EReal) := by
  rw [c128_eq, Ideal.div_coe (by norm_num), ← EReal.coe_mul]

private theorem div_c256 (s : ℝ) : Ideal.div ((s : ℝ) : EReal) c256 = ((s * (1 / 256) : ℝ) : EReal) := by
  rw [c256_eq, Ideal.div_coe (by norm_num), ← EReal.coe_mul]

/-! ## The normalised sample is real -/

private theorem xn_real (xi : Fin 256 → Fin 128 → ℝ) (g b : Fin 128 → ℝ) :
    ∃ X : Fin 256 → Fin 128 → ℝ, ∀ m d,
      xn (fun m d => ((xi m d : ℝ) : EReal)) (fun d => ((g d : ℝ) : EReal)) (fun d => ((b d : ℝ) : EReal)) m d
        = ((X m d : ℝ) : EReal) := by
  obtain ⟨ε, hε, hceps⟩ := ceps_eq
  -- the mean, the centred feature and the variance are real
  have hmu : ∀ m, mu (fun m d => ((xi m d : ℝ) : EReal)) m = (((∑ d, xi m d) * (1 / 128) : ℝ) : EReal) := by
    intro m
    unfold mu
    rw [← coe_sum, div_c128]
  have hxc : ∀ m d, xc (fun m d => ((xi m d : ℝ) : EReal)) m d
      = ((xi m d - (∑ d, xi m d) * (1 / 128) : ℝ) : EReal) := by
    intro m d
    unfold xc
    rw [hmu, ← EReal.coe_sub]
  have hvar : ∀ m, var (fun m d => ((xi m d : ℝ) : EReal)) m
      = (((∑ d, (xi m d - (∑ d, xi m d) * (1 / 128)) * (xi m d - (∑ d, xi m d) * (1 / 128))) * (1 / 128) : ℝ) : EReal) := by
    intro m
    unfold var
    have : ∀ d : Fin 128, xc (fun m d => ((xi m d : ℝ) : EReal)) m d * xc (fun m d => ((xi m d : ℝ) : EReal)) m d
        = (((xi m d - (∑ d, xi m d) * (1 / 128)) * (xi m d - (∑ d, xi m d) * (1 / 128)) : ℝ) : EReal) := by
      intro d
      rw [hxc, ← EReal.coe_mul]
    rw [Finset.sum_congr rfl (fun d _ => this d), ← coe_sum, div_c128]
  -- the variance is a mean of squares, hence non-negative
  have hpos : ∀ m, 0 < (∑ d, (xi m d - (∑ d, xi m d) * (1 / 128)) * (xi m d - (∑ d, xi m d) * (1 / 128))) * (1 / 128) + ε := by
    intro m
    have h0 : 0 ≤ ∑ d, (xi m d - (∑ d, xi m d) * (1 / 128)) * (xi m d - (∑ d, xi m d) * (1 / 128)) :=
      Finset.sum_nonneg (fun d _ => mul_self_nonneg _)
    have h1 : 0 ≤ (∑ d, (xi m d - (∑ d, xi m d) * (1 / 128)) * (xi m d - (∑ d, xi m d) * (1 / 128))) * (1 / 128) :=
      mul_nonneg h0 (by norm_num)
    linarith
  refine ⟨fun m d => (xi m d - (∑ d, xi m d) * (1 / 128))
      * (Real.sqrt ((∑ d, (xi m d - (∑ d, xi m d) * (1 / 128)) * (xi m d - (∑ d, xi m d) * (1 / 128))) * (1 / 128) + ε))⁻¹
      * g d + b d, ?_⟩
  intro m d
  unfold xn
  rw [hxc, hvar, hceps, ← EReal.coe_add, Ideal.rsqrt_coe, if_neg (not_lt.mpr (le_of_lt (hpos m))),
    if_neg (ne_of_gt (hpos m)), ← EReal.coe_mul, ← EReal.coe_mul, ← EReal.coe_add]

/-! ## The hidden rows as real numbers -/

private theorem hidK_real (xi : Fin 256 → Fin 128 → EReal) (g b : Fin 128 → EReal) (X : Fin 256 → Fin 128 → ℝ)
    (hX : ∀ m d, xn xi g b m d = ((X m d : ℝ) : EReal)) (w : Fin 128 → Fin 128 → ℝ) (bias : Fin 128 → ℝ) (h : Fin 128) :
    hidK xi g b (fun a c => ((w a c : ℝ) : EReal)) (fun h => ((bias h : ℝ) : EReal)) h
      = (((∑ d, (∑ m, X m d) * (1 / 256) * w d h) + bias h : ℝ) : EReal) := by
  unfold hidK
  have hmean : ∀ d, meanRow xi g b d = (((∑ m, X m d) * (1 / 256) : ℝ) : EReal) := by
    intro d
    unfold meanRow
    rw [Finset.sum_congr rfl (fun m _ => hX m d), ← coe_sum, div_c256]
  have hterm : ∀ d : Fin 128, meanRow xi g b d * ((w d h : ℝ) : EReal)
      = (((∑ m, X m d) * (1 / 256) * w d h : ℝ) : EReal) := by
    intro d
    rw [hmean, ← EReal.coe_mul]
  rw [Finset.sum_congr rfl (fun d _ => hterm d), ← coe_sum, ← EReal.coe_add]

private theorem hidR_real (xi : Fin 256 → Fin 128 → EReal) (g b : Fin 128 → EReal) (X : Fin 256 → Fin 128 → ℝ)
    (hX : ∀ m d, xn xi g b m d = ((X m d : ℝ) : EReal)) (w : Fin 128 → Fin 128 → ℝ) (bias : Fin 128 → ℝ) (h : Fin 128) :
    hidR xi g b (fun a c => ((w a c : ℝ) : EReal)) (fun h => ((bias h : ℝ) : EReal)) h
      = (((∑ m, ((∑ d, X m d * w d h) + bias h)) * (1 / 256) : ℝ) : EReal) := by
  unfold hidR
  have hterm : ∀ m : Fin 256, (∑ d : Fin 128, xn xi g b m d * ((w d h : ℝ) : EReal)) + ((bias h : ℝ) : EReal)
      = (((∑ d, X m d * w d h) + bias h : ℝ) : EReal) := by
    intro m
    have hd : ∀ d : Fin 128, xn xi g b m d * ((w d h : ℝ) : EReal) = ((X m d * w d h : ℝ) : EReal) := by
      intro d
      rw [hX, ← EReal.coe_mul]
    rw [Finset.sum_congr rfl (fun d _ => hd d), ← coe_sum, ← EReal.coe_add]
  rw [Finset.sum_congr rfl (fun m _ => hterm m), ← coe_sum, div_c256]

/-- On real numbers the mean over the 256 samples commutes with the projection and gives the bias back. -/
private theorem hid_real_eq (X : Fin 256 → Fin 128 → ℝ) (w : Fin 128 → Fin 128 → ℝ) (bias : Fin 128 → ℝ) (h : Fin 128) :
    (∑ d, (∑ m, X m d) * (1 / 256) * w d h) + bias h = (∑ m, ((∑ d, X m d * w d h) + bias h)) * (1 / 256) := by
  have h1 : ∀ d : Fin 128, (∑ m, X m d) * (1 / 256) * w d h = ∑ m, X m d * w d h * (1 / 256) := by
    intro d
    rw [Finset.sum_mul, Finset.sum_mul]
    exact Finset.sum_congr rfl (fun m _ => by ring)
  rw [Finset.sum_congr rfl (fun d _ => h1 d), Finset.sum_comm, Finset.sum_add_distrib, add_mul,
    Finset.sum_const, Finset.card_univ, Fintype.card_fin, nsmul_eq_mul]
  congr 1
  · rw [Finset.sum_mul]
    exact Finset.sum_congr rfl (fun m _ => by rw [Finset.sum_mul])
  · push_cast; ring

private theorem hidK_eq_hidR (xi : Fin 256 → Fin 128 → EReal) (g b : Fin 128 → EReal) (X : Fin 256 → Fin 128 → ℝ)
    (hX : ∀ m d, xn xi g b m d = ((X m d : ℝ) : EReal)) (w : Fin 128 → Fin 128 → ℝ) (bias : Fin 128 → ℝ) (h : Fin 128) :
    hidK xi g b (fun a c => ((w a c : ℝ) : EReal)) (fun h => ((bias h : ℝ) : EReal)) h
      = hidR xi g b (fun a c => ((w a c : ℝ) : EReal)) (fun h => ((bias h : ℝ) : EReal)) h := by
  rw [hidK_real xi g b X hX, hidR_real xi g b X hX, hid_real_eq]

/-- A real number exists that the reference's hidden row denotes. -/
private theorem hidR_coe (xi : Fin 256 → Fin 128 → EReal) (g b : Fin 128 → EReal) (X : Fin 256 → Fin 128 → ℝ)
    (hX : ∀ m d, xn xi g b m d = ((X m d : ℝ) : EReal)) (w : Fin 128 → Fin 128 → ℝ) (bias : Fin 128 → ℝ) :
    ∃ H : Fin 128 → ℝ, ∀ h, hidR xi g b (fun a c => ((w a c : ℝ) : EReal)) (fun h => ((bias h : ℝ) : EReal)) h
      = ((H h : ℝ) : EReal) :=
  ⟨_, fun h => hidR_real xi g b X hX w bias h⟩

/-- Row i through the left weights plus row j through the right weights, the kernel's way and the reference's way, for
    real inputs (the output bias may be any extended real: it is added last on both sides). -/
theorem pair_law (xi xj : Fin 256 → Fin 128 → ℝ) (g b : Fin 128 → ℝ) (wl wr wo : Fin 128 → Fin 128 → ℝ)
    (bl br : Fin 128 → ℝ) (bo : EReal) (e : Fin 128) :
    outK (fun m d => ((xi m d : ℝ) : EReal)) (fun d => ((g d : ℝ) : EReal)) (fun d => ((b d : ℝ) : EReal))
        (fun a c => ((wl a c : ℝ) : EReal)) (fun h => ((bl h : ℝ) : EReal)) (fun a c => ((wo a c : ℝ) : EReal)) e
      + outK (fun m d => ((xj m d : ℝ) : EReal)) (fun d => ((g d : ℝ) : EReal)) (fun d => ((b d : ℝ) : EReal))
        (fun a c => ((wr a c : ℝ) : EReal)) (fun h => ((br h : ℝ) : EReal)) (fun a c => ((wo a c : ℝ) : EReal)) e
      + bo
    = (∑ h : Fin 128,
        (hidR (fun m d => ((xi m d : ℝ) : EReal)) (fun d => ((g d : ℝ) : EReal)) (fun d => ((b d : ℝ) : EReal))
            (fun a c => ((wl a c : ℝ) : EReal)) (fun h => ((bl h : ℝ) : EReal)) h
          + hidR (fun m d => ((xj m d : ℝ) : EReal)) (fun d => ((g d : ℝ) : EReal)) (fun d => ((b d : ℝ) : EReal))
            (fun a c => ((wr a c : ℝ) : EReal)) (fun h => ((br h : ℝ) : EReal)) h) * ((wo h e : ℝ) : EReal))
      + bo := by
  obtain ⟨Xi, hXi⟩ := xn_real xi g b
  obtain ⟨Xj, hXj⟩ := xn_real xj g b
  obtain ⟨Hi, hHi⟩ := hidR_coe _ _ _ Xi hXi wl bl
  obtain ⟨Hj, hHj⟩ := hidR_coe _ _ _ Xj hXj wr br
  congr 1
  unfold outK
  have hKi : ∀ h : Fin 128, hidK (fun m d => ((xi m d : ℝ) : EReal)) (fun d => ((g d : ℝ) : EReal))
      (fun d => ((b d : ℝ) : EReal)) (fun a c => ((wl a c : ℝ) : EReal)) (fun h => ((bl h : ℝ) : EReal)) h
        * ((wo h e : ℝ) : EReal) = ((Hi h * wo h e : ℝ) : EReal) := by
    intro h
    rw [hidK_eq_hidR _ _ _ Xi hXi, hHi, ← EReal.coe_mul]
  have hKj : ∀ h : Fin 128, hidK (fun m d => ((xj m d : ℝ) : EReal)) (fun d => ((g d : ℝ) : EReal))
      (fun d => ((b d : ℝ) : EReal)) (fun a c => ((wr a c : ℝ) : EReal)) (fun h => ((br h : ℝ) : EReal)) h
        * ((wo h e : ℝ) : EReal) = ((Hj h * wo h e : ℝ) : EReal) := by
    intro h
    rw [hidK_eq_hidR _ _ _ Xj hXj, hHj, ← EReal.coe_mul]
  have hR : ∀ h : Fin 128,
      (hidR (fun m d => ((xi m d : ℝ) : EReal)) (fun d => ((g d : ℝ) : EReal)) (fun d => ((b d : ℝ) : EReal))
            (fun a c => ((wl a c : ℝ) : EReal)) (fun h => ((bl h : ℝ) : EReal)) h
          + hidR (fun m d => ((xj m d : ℝ) : EReal)) (fun d => ((g d : ℝ) : EReal)) (fun d => ((b d : ℝ) : EReal))
            (fun a c => ((wr a c : ℝ) : EReal)) (fun h => ((br h : ℝ) : EReal)) h) * ((wo h e : ℝ) : EReal)
        = ((Hi h * wo h e + Hj h * wo h e : ℝ) : EReal) := by
    intro h
    rw [hHi, hHj, ← EReal.coe_add, ← EReal.coe_mul, add_mul]
  rw [Finset.sum_congr rfl (fun h _ => hKi h), Finset.sum_congr rfl (fun h _ => hKj h),
    Finset.sum_congr rfl (fun h _ => hR h), ← coe_sum, ← coe_sum, ← coe_sum, ← EReal.coe_add, Finset.sum_add_distrib]

/-- The two result arrays agree when the first eight argument arrays hold real numbers. -/
theorem resultK_eq_resultR (x : (⟨4, ![1, 256, 512, 128]⟩ : Shape).Idx → EReal) (g b : (⟨1, ![128]⟩ : Shape).Idx → EReal)
    (wl : (⟨2, ![128, 128]⟩ : Shape).Idx → EReal) (bl : (⟨1, ![128]⟩ : Shape).Idx → EReal)
    (wr : (⟨2, ![128, 128]⟩ : Shape).Idx → EReal) (br : (⟨1, ![128]⟩ : Shape).Idx → EReal)
    (wo : (⟨2, ![128, 128]⟩ : Shape).Idx → EReal) (bo : (⟨1, ![128]⟩ : Shape).Idx → EReal)
    (hx : ∃ r : (⟨4, ![1, 256, 512, 128]⟩ : Shape).Idx → ℝ, x = fun i => ((r i : ℝ) : EReal))
    (hg : ∃ r : (⟨1, ![128]⟩ : Shape).Idx → ℝ, g = fun i => ((r i : ℝ) : EReal))
    (hb : ∃ r : (⟨1, ![128]⟩ : Shape).Idx → ℝ, b = fun i => ((r i : ℝ) : EReal))
    (hwl : ∃ r : (⟨2, ![128, 128]⟩ : Shape).Idx → ℝ, wl = fun i => ((r i : ℝ) : EReal))
    (hbl : ∃ r : (⟨1, ![128]⟩ : Shape).Idx → ℝ, bl = fun i => ((r i : ℝ) : EReal))
    (hwr : ∃ r : (⟨2, ![128, 128]⟩ : Shape).Idx → ℝ, wr = fun i => ((r i : ℝ) : EReal))
    (hbr : ∃ r : (⟨1, ![128]⟩ : Shape).Idx → ℝ, br = fun i => ((r i : ℝ) : EReal))
    (hwo : ∃ r : (⟨2, ![128, 128]⟩ : Shape).Idx → ℝ, wo = fun i => ((r i : ℝ) : EReal)) :
    resultK x g b wl bl wr br wo bo = resultR x g b wl bl wr br wo bo := by
  obtain ⟨xr, rfl⟩ := hx
  obtain ⟨gr, rfl⟩ := hg
  obtain ⟨br', rfl⟩ := hb
  obtain ⟨wlr, rfl⟩ := hwl
  obtain ⟨blr, rfl⟩ := hbl
  obtain ⟨wrr, rfl⟩ := hwr
  obtain ⟨brr, rfl⟩ := hbr
  obtain ⟨wor, rfl⟩ := hwo
  funext j
  exact pair_law (fun m d => xr (ix4 (0 : Fin 1) m (j 1) d)) (fun m d => xr (ix4 (0 : Fin 1) m (j 2) d))
    (fun d => gr (ix1 d)) (fun d => br' (ix1 d)) (fun a c => wlr (ix2 a c)) (fun a c => wrr (ix2 a c))
    (fun a c => wor (ix2 a c)) (fun h => blr (ix1 h)) (fun h => brr (ix1 h)) (bo (ix1 (j 3))) (j 3)

end Cert.RowSpec

end
-- ==== Proof.FiniteInputs.lean ====
/-
  What the precondition says. `finite_inputs` compares the absolute value of every element of every argument array with
  +∞ and conjoins the answers; an extended real whose absolute value is below +∞ is a real number. So when the
  predicate is all ones each of the first eight argument arrays is the coercion of a real-valued array.
-/
import proofs.«159848_j1915555414566_1_alg».proof.Pre_finite_inputs
import proofs.«159848_j1915555414566_1_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx Cert.Pre_finite_inputs Cert.Pre_finite_inputs.Gen

/-- The scalar shape has one index. -/
private instance subsingleton_S_ : Subsingleton S_.Idx := ⟨fun a b => funext fun d => d.elim0⟩

/-- An extended real whose absolute value compares below +∞ is a real number: the two infinities fail the comparison. -/
private theorem real_of_abs_lt_top (x : Ideal .f32)
    (h : FloatOps.cmpf .olt (FloatOps.hostAbsf x) (FloatOps.ofBits (F := Ideal) .f32 0x7F800000#32) = 1#1) :
    ∃ r : ℝ, x = ((r : ℝ) : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- One conjunct of the predicate: when the conjunction over all indices of "|a i| < +∞" is one, `a` is real-valued. -/
private theorem real_of_all {s t u v : Shape} {axes : List (Fin s.rank)} [Subsingleton t.Idx] (a : FVec Ideal s .f32)
    (dims : Fin u.rank → Fin s.rank) (hb : u.BroadcastsInDim s dims) (hr : s.ReducesTo axes t) (hv : 0 < v.numel)
    (init : IVec v 1) (j : t.Idx)
    (h : Host.reduce IntOp.andi (cmpf .olt (Host.absf a) (broadcastInDim s dims hb (constant u .f32 0x7F800000#32)))
      init hr hv j = 1#1) :
    ∃ r : s.Idx → ℝ, a = fun i => ((r i : ℝ) : EReal) := by
  have hall : ∀ i, ∃ r : ℝ, a i = ((r : ℝ) : EReal) := fun i =>
    real_of_abs_lt_top (a i) (Host.reduce_andi_all _ init hr hv j h i)
  choose r hr' using hall
  exact ⟨r, funext hr'⟩

/-- A conjunction of two `i1` arrays that is one at an index has both conjuncts one there. -/
private theorem andi_apply_eq_one {s : Shape} (x y : IVec s 1) (i : s.Idx) (h : andi x y i = 1#1) :
    x i = 1#1 ∧ y i = 1#1 := IntOp.andi_eq_one.1 h

/-- Under the precondition the first eight argument arrays hold real numbers. -/
theorem real_of_pre (a0 : FVec Ideal S1x256x512x128 .f32) (a1 a2 : FVec Ideal S128 .f32) (a3 : FVec Ideal S128x128 .f32)
    (a4 : FVec Ideal S128 .f32) (a5 : FVec Ideal S128x128 .f32) (a6 : FVec Ideal S128 .f32) (a7 : FVec Ideal S128x128 .f32)
    (a8 : FVec Ideal S128 .f32)
    (h : Cert.Pre_finite_inputs.fn (F := Ideal) a0 a1 a2 a3 a4 a5 a6 a7 a8 = fun _ => 1#1) :
    (∃ r : S1x256x512x128.Idx → ℝ, a0 = fun i => ((r i : ℝ) : EReal))
    ∧ (∃ r : S128.Idx → ℝ, a1 = fun i => ((r i : ℝ) : EReal))
    ∧ (∃ r : S128.Idx → ℝ, a2 = fun i => ((r i : ℝ) : EReal))
    ∧ (∃ r : S128x128.Idx → ℝ, a3 = fun i => ((r i : ℝ) : EReal))
    ∧ (∃ r : S128.Idx → ℝ, a4 = fun i => ((r i : ℝ) : EReal))
    ∧ (∃ r : S128x128.Idx → ℝ, a5 = fun i => ((r i : ℝ) : EReal))
    ∧ (∃ r : S128.Idx → ℝ, a6 = fun i => ((r i : ℝ) : EReal))
    ∧ (∃ r : S128x128.Idx → ℝ, a7 = fun i => ((r i : ℝ) : EReal)) := by
  have h0 := congrFun h ValueIdx.ix0
  unfold Cert.Pre_finite_inputs.fn Cert.Pre_finite_inputs.fn_part1 Cert.Pre_finite_inputs.fn_part2 at h0
  dsimp only at h0
  obtain ⟨h0, -⟩ := andi_apply_eq_one _ _ _ h0
  obtain ⟨h0, e7⟩ := andi_apply_eq_one _ _ _ h0
  obtain ⟨h0, e6⟩ := andi_apply_eq_one _ _ _ h0
  obtain ⟨h0, e5⟩ := andi_apply_eq_one _ _ _ h0
  obtain ⟨h0, e4⟩ := andi_apply_eq_one _ _ _ h0
  obtain ⟨h0, e3⟩ := andi_apply_eq_one _ _ _ h0
  obtain ⟨h0, e2⟩ := andi_apply_eq_one _ _ _ h0
  obtain ⟨e0, e1⟩ := andi_apply_eq_one _ _ _ h0
  exact ⟨real_of_all a0 _ _ _ _ _ _ e0, real_of_all a1 _ _ _ _ _ _ e1, real_of_all a2 _ _ _ _ _ _ e2,
    real_of_all a3 _ _ _ _ _ _ e3, real_of_all a4 _ _ _ _ _ _ e4, real_of_all a5 _ _ _ _ _ _ e5,
    real_of_all a6 _ _ _ _ _ _ e6, real_of_all a7 _ _ _ _ _ _ e7⟩

end Cert.FiniteInputs

end
-- ==== Proof.lean ====
/-
  The certificate: the Pallas kernel (LayerNorm and the mean over the samples fused with two projections, then a
  broadcast sum) against the jnp reference (project every sample, average, add the two halves, project again).

  At the ideal instance both compute, at (i, j, e),
      Σ_h (left_i h + right_j h) · w_out h e + b_out e
  where the hidden rows are the sample-averaged layer-normalised input through the left (right) weights plus bias.
  The kernel averages before it projects and distributes the output projection over the two halves; the reference does
  neither. The two agree on real inputs by linearity (`RowLaw`), and the precondition makes the inputs real
  (`FiniteInputs`). The kernel's result array is read off its run region by region (`KernelValue` over `RowArrays`
  and `PairSum`), the reference's off its operations one at a time (`RefRow`).

  The three frames are the generated ones (the reference's is its run with the result dropped); the idealization
  rewrote nothing, so `preserves` is trivial.
-/
import proofs.«159848_j1915555414566_1_alg».proof.Defs
import proofs.«159848_j1915555414566_1_alg».proof.Proof.Gen.Kernel
import proofs.«159848_j1915555414566_1_alg».proof.Proof.Gen.Kernel.Skeleton
import proofs.«159848_j1915555414566_1_alg».proof.Proof.Gen.Kernel.Launch
import proofs.«159848_j1915555414566_1_alg».proof.Proof.Gen.Kernel.Points
import proofs.«159848_j1915555414566_1_alg».proof.Proof.Gen.Kernel.Frame
import proofs.«159848_j1915555414566_1_alg».proof.Proof.Gen.KernelIdeal
import proofs.«159848_j1915555414566_1_alg».proof.Proof.Gen.KernelIdeal.Skeleton
import proofs.«159848_j1915555414566_1_alg».proof.Proof.Gen.KernelIdeal.Launch
import proofs.«159848_j1915555414566_1_alg».proof.Proof.Gen.KernelIdeal.Points
import proofs.«159848_j1915555414566_1_alg».proof.Proof.Gen.KernelIdeal.Frame
import proofs.«159848_j1915555414566_1_alg».proof.Proof.Gen.ReferenceIdeal
import proofs.«159848_j1915555414566_1_alg».proof.Proof.Gen.Pre_finite_inputs
import proofs.«159848_j1915555414566_1_alg».proof.Proof.Gen.ReferenceIdeal.Run
import proofs.«159848_j1915555414566_1_alg».proof.Proof.Gen.ReferenceIdeal.Read
import proofs.«159848_j1915555414566_1_alg».proof.Proof.KernelValue
import proofs.«159848_j1915555414566_1_alg».proof.Proof.RefRow
import proofs.«159848_j1915555414566_1_alg».proof.Proof.RowLaw
import proofs.«159848_j1915555414566_1_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two runs end at one array: the kernel's at `resultK` of its arguments, the reference's at `resultR` of
    arguments that agree with them, and the two functions agree on real inputs. -/
theorem algebraic : Cert.algebraic_KernelIdeal_ReferenceIdeal := by
  intro m ρ m' ρ' hpre hagree
  refine ⟨fun c => Cert.RowSpec.resultK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Result.result_eq m ρ c), (h c).2⟩)
      (Cert.KernelIdeal.Gen.run_result m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8⟩ := hagree c
    obtain ⟨r0, r1, r2, r3, r4, r5, r6, r7⟩ := Cert.FiniteInputs.real_of_pre _ _ _ _ _ _ _ _ _ (hpre c)
    rw [(h c).1, Cert.ReferenceIdeal.Read.val_main_v46_eq, Cert.ReferenceIdeal.RefRow.val_eq_resultR,
      e0, e1, e2, e3, e4, e5, e6, e7, e8]
    exact (Cert.RowSpec.resultK_eq_resultR _ _ _ _ _ _ _ _ _ r0 r1 r2 r3 r4 r5 r6 r7).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
